-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x2 : Shape := ⟨2, ![100000, 2]⟩
abbrev S2x1600000 : Shape := ⟨2, ![2, 1600000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x2 : S_.BroadcastsInDim S100000x2 (![] : Fin 0 → Fin S100000x2.rank)
  reducesTo_S100000x2_S_d0_1 : S100000x2.ReducesTo [0, 1] S_
  bcast_S_S129x64 : S_.BroadcastsInDim S129x64 (![] : Fin 0 → Fin S129x64.rank)
  reducesTo_S129x64_S_d0_1 : S129x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S128x64 : S_.BroadcastsInDim S128x64 (![] : Fin 0 → Fin S128x64.rank)
  reducesTo_S128x64_S_d0_1 : S128x64.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part4 {F : FTy → Type} [FloatOps F] (main_arg2 : IVec S2x1600000 32) (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_c_28 : IVec S_ 32 := constantI S_ 32 0#32
  let main_v74 : IVec S2x1600000 32 := broadcastInDim S2x1600000 ![] bcast_S_S2x1600000 main_c_28
  let main_v75 : IVec S2x1600000 1 := cmpi .sge main_arg2 main_v74
  let main_c_29 : IVec S_ 1 := constantI S_ 1 1#1
  let main_v76 : IVec S_ 1 := (fun x v => Host.reduce IntOp.andi x v reducesTo_S2x1600000_S_d0_1 h_S_) main_v75 main_c_29
  let main_v77 : IVec S_ 1 := andi main_v73 main_v76
  let main_c_30 : IVec S_ 32 := constantI S_ 32 100000#32
  let main_v78 : IVec S2x1600000 32 := broadcastInDim S2x1600000 ![] bcast_S_S2x1600000 main_c_30
  let main_v79 : IVec S2x1600000 1 := cmpi .slt main_arg2 main_v78
  let main_c_31 : IVec S_ 1 := constantI S_ 1 1#1
  let main_v80 : IVec S_ 1 := (fun x v => Host.reduce IntOp.andi x v reducesTo_S2x1600000_S_d0_1 h_S_) main_v79 main_c_31
  let main_v81 : IVec S_ 1 := andi main_v77 main_v80
  main_v81

def fn_part3 {F : FTy → Type} [FloatOps F] (main_arg2 : IVec S2x1600000 32) (main_arg12 : FVec F S128x64 .f32) (main_arg13 : FVec F S64 .f32) (main_arg14 : FVec F S64x64 .f32) (main_arg15 : FVec F S64 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg2 main_arg15 main_v63 main_v67

def fn_part2 {F : FTy → Type} [FloatOps F] (main_arg2 : IVec S2x1600000 32) (main_arg8 : FVec F S64x64 .f32) (main_arg9 : FVec F S64 .f32) (main_arg10 : FVec F S64x1 .f32) (main_arg11 : FVec F S1 .f32) (main_arg12 : FVec F S128x64 .f32) (main_arg13 : FVec F S64 .f32) (main_arg14 : FVec F S64x64 .f32) (main_arg15 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg10
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg2 main_arg12 main_arg13 main_arg14 main_arg15 main_v48 main_v49 main_v50

def fn_part1 {F : FTy → Type} [FloatOps F] (main_arg2 : IVec S2x1600000 32) (main_arg5 : FVec F S64 .f32) (main_arg6 : FVec F S64x64 .f32) (main_arg7 : FVec F S64 .f32) (main_arg8 : FVec F S64x64 .f32) (main_arg9 : FVec F S64 .f32) (main_arg10 : FVec F S64x1 .f32) (main_arg11 : FVec F S1 .f32) (main_arg12 : FVec F S128x64 .f32) (main_arg13 : FVec F S64 .f32) (main_arg14 : FVec F S64x64 .f32) (main_arg15 : FVec F S64 .f32) (main_v13 : IVec S_ 1) (main_v16 : IVec S129x64 1) : IVec S_ 1 :=
  let main_c_5 : IVec S_ 1 := constantI S_ 1 1#1
  let main_v17 : IVec S_ 1 := (fun x v => Host.reduce IntOp.andi x v reducesTo_S129x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg8 main_arg9 main_arg10 main_arg11 main_arg12 main_arg13 main_arg14 main_arg15 main_v33

def fn {F : FTy → Type} [FloatOps F] (main_arg0 : FVec F S100000x64 .f32) (main_arg1 : FVec F S100000x2 .f32) (main_arg2 : IVec S2x1600000 32) (main_arg3 : FVec F S100000x64 .f32) (main_arg4 : FVec F S129x64 .f32) (main_arg5 : FVec F S64 .f32) (main_arg6 : FVec F S64x64 .f32) (main_arg7 : FVec F S64 .f32) (main_arg8 : FVec F S64x64 .f32) (main_arg9 : FVec F S64 .f32) (main_arg10 : FVec F S64x1 .f32) (main_arg11 : FVec F S1 .f32) (main_arg12 : FVec F S128x64 .f32) (main_arg13 : FVec F S64 .f32) (main_arg14 : FVec F S64x64 .f32) (main_arg15 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S100000x64 .f32 := Host.absf main_arg3
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S129x64 .f32 := Host.absf main_arg4
  let main_cst_4 : FVec F S_ .f32 := constant S_ .f32 0x7F800000#32
  let main_v15 : FVec F S129x64 .f32 := broadcastInDim S129x64 ![] bcast_S_S129x64 main_cst_4
  let main_v16 : IVec S129x64 1 := cmpf .olt main_v14 main_v15
  fn_part1 (F := F) main_arg2 main_arg5 main_arg6 main_arg7 main_arg8 main_arg9 main_arg10 main_arg11 main_arg12 main_arg13 main_arg14 main_arg15 main_v13 main_v16
-- ==== Kernel.lean ====
abbrev S100000x64 : Shape := ⟨2, ![100000, 64]⟩
abbrev S100000x2 : Shape := ⟨2, ![100000, 2]⟩
abbrev S2x1600000 : Shape := ⟨2, ![2, 1600000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x1 : Shape := ⟨2, ![1, 1]⟩
abbrev S1600000x64 : Shape := ⟨2, ![1600000, 64]⟩
abbrev S1600000x2 : Shape := ⟨2, ![1600000, 2]⟩
abbrev S1x64 : Shape := ⟨2, ![1, 64]⟩
abbrev S4000x64 : Shape := ⟨2, ![4000, 64]⟩
abbrev S4000x1 : Shape := ⟨2, ![4000, 1]⟩
abbrev S4000x2 : Shape := ⟨2, ![4000, 2]⟩
abbrev S100000x1 : Shape := ⟨2, ![100000, 1]⟩
abbrev S5000x64 : Shape := ⟨2, ![5000, 64]⟩
abbrev S5000x2 : Shape := ⟨2, ![5000, 2]⟩

abbrev nBuf : Space → Nat
  | .hbm => 151
  | .vmem => 39
  | .smem => 0
  | _ => 0

abbrev hbmTy0_0 (i : Nat) : BufTy := match i % 128 with
  | 0 => ⟨S100000x64, .f32⟩
  | 1 => ⟨S100000x2, .f32⟩
  | 2 => ⟨S2x1600000, .i32⟩
  | 3 => ⟨S100000x64, .f32⟩
  | 4 => ⟨S129x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x1, .f32⟩
  | 11 => ⟨S1, .f32⟩
  | 12 => ⟨S128x64, .f32⟩
  | 13 => ⟨S64, .f32⟩
  | 14 => ⟨S64x64, .f32⟩
  | 15 => ⟨S64, .f32⟩
  | 16 => ⟨S1x1600000, .i32⟩
  | 17 => ⟨S1600000, .i32⟩
  | 18 => ⟨S1x1600000, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1, .i32⟩
  | 29 => ⟨S_, .i32⟩
  | 30 => ⟨S1600000x1, .i32⟩
  | 31 => ⟨S1600000x1, .i1⟩
  | 32 => ⟨S1x1, .i32⟩
  | 33 => ⟨S1600000x1, .i32⟩
  | 34 => ⟨S1600000x1, .i1⟩
  | 35 => ⟨S1600000x1, .i1⟩
  | 36 => ⟨S_, .i1⟩
  | 37 => ⟨S1600000, .i1⟩
  | 38 => ⟨S1600000x64, .f32⟩
  | 39 => ⟨S1600000x64, .i1⟩
  | 40 => ⟨S_, .f32⟩
  | 41 => ⟨S1600000x64, .f32⟩
  | 42 => ⟨S1600000x64, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1, .i32⟩
  | 52 => ⟨S_, .i32⟩
  | 53 => ⟨S1600000x1, .i32⟩
  | 54 => ⟨S1600000x1, .i1⟩
  | 55 => ⟨S1x1, .i32⟩
  | 56 => ⟨S1600000x1, .i32⟩
  | 57 => ⟨S1600000x1, .i1⟩
  | 58 => ⟨S1600000x1, .i1⟩
  | 59 => ⟨S_, .i1⟩
  | 60 => ⟨S1600000, .i1⟩
  | 61 => ⟨S1600000x64, .f32⟩
  | 62 => ⟨S1600000x64, .i1⟩
  | 63 => ⟨S_, .f32⟩
  | 64 => ⟨S1600000x64, .f32⟩
  | 65 => ⟨S1600000x64, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1, .i32⟩
  | 75 => ⟨S_, .i32⟩
  | 76 => ⟨S1600000x1, .i32⟩
  | 77 => ⟨S1600000x1, .i1⟩
  | 78 => ⟨S1x1, .i32⟩
  | 79 => ⟨S1600000x1, .i32⟩
  | 80 => ⟨S1600000x1, .i1⟩
  | 81 => ⟨S1600000x1, .i1⟩
  | 82 => ⟨S_, .i1⟩
  | 83 => ⟨S1600000, .i1⟩
  | 84 => ⟨S1600000x2, .f32⟩
  | 85 => ⟨S1600000x2, .i1⟩
  | 86 => ⟨S_, .f32⟩
  | 87 => ⟨S1600000x2, .f32⟩
  | 88 => ⟨S1600000x2, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1, .i32⟩
  | 98 => ⟨S_, .i32⟩
  | 99 => ⟨S1600000x1, .i32⟩
  | 100 => ⟨S1600000x1, .i1⟩
  | 101 => ⟨S1x1, .i32⟩
  | 102 => ⟨S1600000x1, .i32⟩
  | 103 => ⟨S1600000x1, .i1⟩
  | 104 => ⟨S1600000x1, .i1⟩
  | 105 => ⟨S_, .i1⟩
  | 106 => ⟨S1600000, .i1⟩
  | 107 => ⟨S1600000x2, .f32⟩
  | 108 => ⟨S1600000x2, .i1⟩
  | 109 => ⟨S_, .f32⟩
  | 110 => ⟨S1600000x2, .f32⟩
  | 111 => ⟨S1600000x2, .f32⟩
  | 112 => ⟨S1600000x2, .f32⟩
  | 113 => ⟨S1600000x2, .f32⟩
  | 114 => ⟨S_, .f32⟩
  | 115 => ⟨S1600000, .f32⟩
  | 116 => ⟨S1600000x1, .f32⟩
  | 117 => ⟨S64x64, .f32⟩
  | 118 => ⟨S64x64, .f32⟩
  | 119 => ⟨S1x64, .f32⟩
  | 120 => ⟨S1x64, .f32⟩
  | 121 => ⟨S1x64, .f32⟩
  | 122 => ⟨S1x64, .f32⟩
  | 123 => ⟨S1x1, .f32⟩
  | 124 => ⟨S1600000x64, .f32⟩
  | 125 => ⟨S1600000x2, .f32⟩
  | 126 => ⟨S_, .f32⟩
  | 127 => ⟨S100000x64, .f32⟩
  | _ => ⟨S100000x64, .f32⟩

abbrev hbmTy0_1 (i : Nat) : BufTy := match i % 128 with
  | 0 => ⟨S1600000x1, .i32⟩
  | 1 => ⟨S100000x64, .f32⟩
  | 2 => ⟨S_, .f32⟩
  | 3 => ⟨S1600000x1, .f32⟩
  | 4 => ⟨S_, .f32⟩
  | 5 => ⟨S100000x1, .f32⟩
  | 6 => ⟨S1600000x1, .i32⟩
  | 7 => ⟨S100000x1, .f32⟩
  | 8 => ⟨S_, .f32⟩
  | 9 => ⟨S100000x2, .f32⟩
  | 10 => ⟨S1600000x1, .i32⟩
  | 11 => ⟨S100000x2, .f32⟩
  | 12 => ⟨S_, .f32⟩
  | 13 => ⟨S100000x1, .f32⟩
  | 14 => ⟨S100000x1, .f32⟩
  | 15 => ⟨S100000x2, .f32⟩
  | 16 => ⟨S100000x2, .f32⟩
  | 17 => ⟨S64x64, .f32⟩
  | 18 => ⟨S64x64, .f32⟩
  | 19 => ⟨S1x64, .f32⟩
  | 20 => ⟨S1x64, .f32⟩
  | 21 => ⟨S100000x64, .f32⟩
  | 22 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S4000x2, .f32⟩
  | .local _ .vmem, ⟨7, _⟩ => ⟨S4000x2, .f32⟩
  | .local _ .vmem, ⟨8, _⟩ => ⟨S64x64, .f32⟩
  | .local _ .vmem, ⟨9, _⟩ => ⟨S64x64, .f32⟩
  | .local _ .vmem, ⟨10, _⟩ => ⟨S1x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S64x1, .f32⟩
  | .local _ .vmem, ⟨17, _⟩ => ⟨S1x1, .f32⟩
  | .local _ .vmem, ⟨18, _⟩ => ⟨S4000x64, .f32⟩
  | .local _ .vmem, ⟨19, _⟩ => ⟨S4000x64, .f32⟩
  | .local _ .vmem, ⟨20, _⟩ => ⟨S4000x2, .f32⟩
  | .local _ .vmem, ⟨21, _⟩ => ⟨S4000x2, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x2, .f32⟩
  | .local _ .vmem, ⟨27, _⟩ => ⟨S5000x2, .f32⟩
  | .local _ .vmem, ⟨28, _⟩ => ⟨S5000x2, .f32⟩
  | .local _ .vmem, ⟨29, _⟩ => ⟨S5000x2, .f32⟩
  | .local _ .vmem, ⟨30, _⟩ => ⟨S64x64, .f32⟩
  | .local _ .vmem, ⟨31, _⟩ => ⟨S64x64, .f32⟩
  | .local _ .vmem, ⟨32, _⟩ => ⟨S1x64, .f32⟩
  | .local _ .vmem, ⟨33, _⟩ => ⟨S64x64, .f32⟩
  | .local _ .vmem, ⟨34, _⟩ => ⟨S1x64, .f32⟩
  | .local _ .vmem, ⟨35, _⟩ => ⟨S5000x64, .f32⟩
  | .local _ .vmem, ⟨36, _⟩ => ⟨S5000x64, .f32⟩
  | .local _ .vmem, ⟨37, _⟩ => ⟨S5000x2, .f32⟩
  | .local _ .vmem, ⟨38, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v4 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v5 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v6 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v7 : Ref sig .tc := ⟨.hbm, 111, rfl⟩
abbrev main_v8 : Ref sig .tc := ⟨.hbm, 112, rfl⟩
abbrev main_v9 : Ref sig .tc := ⟨.hbm, 113, rfl⟩
abbrev main_cst : Ref sig .tc := ⟨.hbm, 114, rfl⟩
abbrev main_v10 : Ref sig .tc := ⟨.hbm, 115, rfl⟩
abbrev main_v11 : Ref sig .tc := ⟨.hbm, 116, rfl⟩
abbrev main_v12 : Ref sig .tc := ⟨.hbm, 117, rfl⟩
abbrev main_v13 : Ref sig .tc := ⟨.hbm, 118, rfl⟩
abbrev main_v14 : Ref sig .tc := ⟨.hbm, 119, rfl⟩
abbrev main_v15 : Ref sig .tc := ⟨.hbm, 120, rfl⟩
abbrev main_v16 : Ref sig .tc := ⟨.hbm, 121, rfl⟩
abbrev main_v17 : Ref sig .tc := ⟨.hbm, 122, rfl⟩
abbrev main_v18 : Ref sig .tc := ⟨.hbm, 123, rfl⟩
abbrev main_v19_0 : Ref sig .tc := ⟨.hbm, 124, rfl⟩
abbrev main_v19_1 : Ref sig .tc := ⟨.hbm, 125, rfl⟩
abbrev main_cst_0 : Ref sig .tc := ⟨.hbm, 126, rfl⟩
abbrev main_v20 : Ref sig .tc := ⟨.hbm, 127, rfl⟩
abbrev main_v21 : Ref sig .tc := ⟨.hbm, 128, rfl⟩
abbrev main_v22 : Ref sig .tc := ⟨.hbm, 129, rfl⟩
abbrev main_cst_1 : Ref sig .tc := ⟨.hbm, 130, rfl⟩
abbrev main_v23 : Ref sig .tc := ⟨.hbm, 131, rfl⟩
abbrev main_cst_2 : Ref sig .tc := ⟨.hbm, 132, rfl⟩
abbrev main_v24 : Ref sig .tc := ⟨.hbm, 133, rfl⟩
abbrev main_v25 : Ref sig .tc := ⟨.hbm, 134, rfl⟩
abbrev main_v26 : Ref sig .tc := ⟨.hbm, 135, rfl⟩
abbrev main_cst_3 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_cst_4 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38_0 : Ref sig .tc := ⟨.hbm, 149, rfl⟩
abbrev main_v38_1 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem5_0 : DmaSem sig := 31
abbrev cc1_sem6_0 : DmaSem sig := 32
abbrev cc1_sem7_0 : DmaSem sig := 33
abbrev cc1_sem8_0 : DmaSem sig := 34
abbrev cc1_sem9_0 : DmaSem sig := 35
abbrev cc1_sem9_1 : DmaSem sig := 36
abbrev cc1_sem10_0 : DmaSem sig := 37
abbrev cc1_sem10_1 : DmaSem sig := 38

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4000x2 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S5000x2 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000_S1600000x2_0 : S1600000.BroadcastsInDim S1600000x2 (![0] : Fin 1 → Fin S1600000x2.rank)
  bcast_S_S1600000x2 : S_.BroadcastsInDim S1600000x2 (![] : Fin 0 → Fin S1600000x2.rank)
  reducesTo_S1600000x2_S1600000_d1 : S1600000x2.ReducesTo [1] S1600000
  slices_S129x64_S64x64_0_0 : S129x64.Slices ![0, 0] S64x64
  slices_S129x64_S64x64_64_0 : S129x64.Slices ![64, 0] S64x64
  slices_S129x64_S1x64_128_0 : S129x64.Slices ![128, 0] S1x64
  shapeCasts_S64_S1x64 : S64.ShapeCasts S1x64
  shapeCasts_S1_S1x1 : S1.ShapeCasts S1x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S4000x1_S4000x64 : S4000x1.Broadcasts S4000x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  broadcasts_S4000x1_S4000x2 : S4000x1.Broadcasts S4000x2
  bcast_S_S100000x64 : S_.BroadcastsInDim S100000x64 (![] : Fin 0 → Fin S100000x64.rank)
  bcast_S_S100000x1 : S_.BroadcastsInDim S100000x1 (![] : Fin 0 → Fin S100000x1.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  slices_S128x64_S64x64_0_0 : S128x64.Slices ![0, 0] S64x64
  slices_S128x64_S64x64_64_0 : S128x64.Slices ![64, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  gather_S100000x64_S1600000x1_S1600000x64_1_0_n_n_0_1_164_wf : GatherDims.WF S100000x64 S1600000x1 S1600000x64 [1] [0] [] [0] [] 1 ![1, 64]
  gather_S100000x2_S1600000x1_S1600000x2_1_0_n_n_0_1_12_wf : GatherDims.WF S100000x2 S1600000x1 S1600000x2 [1] [0] [] [0] [] 1 ![1, 2]
  dot_S4000x64_S64x64_S4000x64_1_0_0_1_n_n_wf : DotDims.WF S4000x64 S64x64 S4000x64 [1] [0] [0] [1] [] []
  dot_S4000x64_S64x1_S4000x1_1_0_0_1_n_n_wf : DotDims.WF S4000x64 S64x1 S4000x1 [1] [0] [0] [1] [] []
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  scatter_S100000x2_S1600000x1_S1600000x2_1_0_0_1_wf : ScatterDims.WF S100000x2 S1600000x1 S1600000x2 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1600000x64.size a
  hwx0_0 : ∀ i : grid0.Coords, EltTy.bits .f32 = 32 ∨ (Rect.block (s := S1600000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1600000x64.size a
  hwx0_1 : ∀ i : grid0.Coords, EltTy.bits .f32 = 32 ∨ (Rect.block (s := S1600000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S1600000x1.size a
  hwx0_2 : ∀ i : grid0.Coords, EltTy.bits .f32 = 32 ∨ (Rect.block (s := S1600000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x2.size a ≤ S1600000x2.size a
  hwx0_3 : ∀ i : grid0.Coords, EltTy.bits .f32 = 32 ∨ (Rect.block (s := S1600000x2) S4000x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x1.size a ≤ S64x1.size a
  hwx0_12 : ∀ i : grid0.Coords, EltTy.bits .f32 = 32 ∨ (Rect.block (s := S64x1) S64x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x64.size a ≤ S1600000x64.size a
  hwx0_14 : ∀ i : grid0.Coords, EltTy.bits .f32 = 32 ∨ (Rect.block (s := S1600000x64) S4000x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4000x2.size a ≤ S1600000x2.size a
  hwx0_15 : ∀ i : grid0.Coords, EltTy.bits .f32 = 32 ∨ (Rect.block (s := S1600000x2) S4000x2.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x2.size a ≤ S100000x2.size a
  hwx1_2 : ∀ i : grid1.Coords, EltTy.bits .f32 = 32 ∨ (Rect.block (s := S100000x2) S5000x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x2.size a ≤ S100000x2.size a
  hwx1_3 : ∀ i : grid1.Coords, EltTy.bits .f32 = 32 ∨ (Rect.block (s := S100000x2) S5000x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .f32 = 32 ∨ (Rect.block (s := S100000x64) S5000x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x2.size a ≤ S100000x2.size a
  hwx1_10 : ∀ i : grid1.Coords, EltTy.bits .f32 = 32 ∨ (Rect.block (s := S100000x2) S5000x2.size (cc1_transform_10 i) (hinb1_10 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v4) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4000x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S64x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19_0) S4000x64.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v19_1) S4000x2.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S5000x2.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v34) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v37) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v38_0) S5000x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v38_1) S5000x2.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x64 : Shape := ⟨2, ![100000, 64]⟩
abbrev S100000x2 : Shape := ⟨2, ![100000, 2]⟩
abbrev S2x1600000 : Shape := ⟨2, ![2, 1600000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x2 : Shape := ⟨2, ![1600000, 2]⟩
abbrev S1600000x129 : Shape := ⟨2, ![1600000, 129]⟩
abbrev S1x64 : Shape := ⟨2, ![1, 64]⟩
abbrev S1x1 : Shape := ⟨2, ![1, 1]⟩
abbrev S100000x1 : Shape := ⟨2, ![100000, 1]⟩
abbrev S100000x128 : Shape := ⟨2, ![100000, 128]⟩

abbrev nBuf : Space → Nat
  | .hbm => 122
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x2, .f32⟩
  | .hbm, ⟨2, _⟩ => ⟨S2x1600000, .i32⟩
  | .hbm, ⟨3, _⟩ => ⟨S100000x64, .f32⟩
  | .hbm, ⟨4, _⟩ => ⟨S129x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S128x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x2, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x2, .f32⟩
  | .hbm, ⟨56, _⟩ => ⟨S1600000x2, .f32⟩
  | .hbm, ⟨57, _⟩ => ⟨S1600000x2, .f32⟩
  | .hbm, ⟨58, _⟩ => ⟨S_, .f32⟩
  | .hbm, ⟨59, _⟩ => ⟨S1600000, .f32⟩
  | .hbm, ⟨60, _⟩ => ⟨S1600000x1, .f32⟩
  | .hbm, ⟨61, _⟩ => ⟨S1600000x129, .f32⟩
  | .hbm, ⟨62, _⟩ => ⟨S1600000x64, .f32⟩
  | .hbm, ⟨63, _⟩ => ⟨S1x64, .f32⟩
  | .hbm, ⟨64, _⟩ => ⟨S1600000x64, .f32⟩
  | .hbm, ⟨65, _⟩ => ⟨S1600000x64, .f32⟩
  | .hbm, ⟨66, _⟩ => ⟨S_, .f32⟩
  | .hbm, ⟨67, _⟩ => ⟨S1600000x64, .f32⟩
  | .hbm, ⟨68, _⟩ => ⟨S1600000x64, .f32⟩
  | .hbm, ⟨69, _⟩ => ⟨S1600000x64, .f32⟩
  | .hbm, ⟨70, _⟩ => ⟨S1x64, .f32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S1600000x64, .f32⟩
  | .hbm, ⟨75, _⟩ => ⟨S1600000x64, .f32⟩
  | .hbm, ⟨76, _⟩ => ⟨S1600000x64, .f32⟩
  | .hbm, ⟨77, _⟩ => ⟨S1x64, .f32⟩
  | .hbm, ⟨78, _⟩ => ⟨S1600000x64, .f32⟩
  | .hbm, ⟨79, _⟩ => ⟨S1600000x64, .f32⟩
  | .hbm, ⟨80, _⟩ => ⟨S_, .f32⟩
  | .hbm, ⟨81, _⟩ => ⟨S1600000x64, .f32⟩
  | .hbm, ⟨82, _⟩ => ⟨S1600000x64, .f32⟩
  | .hbm, ⟨83, _⟩ => ⟨S1600000x1, .f32⟩
  | .hbm, ⟨84, _⟩ => ⟨S1x1, .f32⟩
  | .hbm, ⟨85, _⟩ => ⟨S1600000x1, .f32⟩
  | .hbm, ⟨86, _⟩ => ⟨S1600000x1, .f32⟩
  | .hbm, ⟨87, _⟩ => ⟨S1600000x2, .f32⟩
  | .hbm, ⟨88, _⟩ => ⟨S1600000x2, .f32⟩
  | .hbm, ⟨89, _⟩ => ⟨S_, .f32⟩
  | .hbm, ⟨90, _⟩ => ⟨S100000x64, .f32⟩
  | .hbm, ⟨91, _⟩ => ⟨S1600000x1, .i32⟩
  | .hbm, ⟨92, _⟩ => ⟨S100000x64, .f32⟩
  | .hbm, ⟨93, _⟩ => ⟨S_, .f32⟩
  | .hbm, ⟨94, _⟩ => ⟨S1600000x1, .f32⟩
  | .hbm, ⟨95, _⟩ => ⟨S_, .f32⟩
  | .hbm, ⟨96, _⟩ => ⟨S100000x1, .f32⟩
  | .hbm, ⟨97, _⟩ => ⟨S1600000x1, .i32⟩
  | .hbm, ⟨98, _⟩ => ⟨S100000x1, .f32⟩
  | .hbm, ⟨99, _⟩ => ⟨S_, .f32⟩
  | .hbm, ⟨100, _⟩ => ⟨S100000x2, .f32⟩
  | .hbm, ⟨101, _⟩ => ⟨S1600000x1, .i32⟩
  | .hbm, ⟨102, _⟩ => ⟨S100000x2, .f32⟩
  | .hbm, ⟨103, _⟩ => ⟨S_, .f32⟩
  | .hbm, ⟨104, _⟩ => ⟨S100000x1, .f32⟩
  | .hbm, ⟨105, _⟩ => ⟨S100000x1, .f32⟩
  | .hbm, ⟨106, _⟩ => ⟨S100000x2, .f32⟩
  | .hbm, ⟨107, _⟩ => ⟨S100000x2, .f32⟩
  | .hbm, ⟨108, _⟩ => ⟨S100000x128, .f32⟩
  | .hbm, ⟨109, _⟩ => ⟨S100000x64, .f32⟩
  | .hbm, ⟨110, _⟩ => ⟨S1x64, .f32⟩
  | .hbm, ⟨111, _⟩ => ⟨S100000x64, .f32⟩
  | .hbm, ⟨112, _⟩ => ⟨S100000x64, .f32⟩
  | .hbm, ⟨113, _⟩ => ⟨S_, .f32⟩
  | .hbm, ⟨114, _⟩ => ⟨S100000x64, .f32⟩
  | .hbm, ⟨115, _⟩ => ⟨S100000x64, .f32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x64, .f32⟩
  | .hbm, ⟨120, _⟩ => ⟨S100000x64, .f32⟩
  | .hbm, ⟨121, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call0_cst : Ref sig .tc := ⟨.hbm, 66, rfl⟩
abbrev main_call0_v0 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call1_cst : Ref sig .tc := ⟨.hbm, 73, rfl⟩
abbrev main_call1_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_call2_cst : Ref sig .tc := ⟨.hbm, 80, rfl⟩
abbrev main_call2_v0 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_7 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_8 : Ref sig .tc := ⟨.hbm, 93, rfl⟩
abbrev main_v61 : Ref sig .tc := ⟨.hbm, 94, rfl⟩
abbrev main_cst_9 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_10 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_11 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_call3_cst : Ref sig .tc := ⟨.hbm, 113, rfl⟩
abbrev main_call3_v0 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x2_S1600000_d1 : S1600000x2.ReducesTo [1] S1600000
  h_S_ : 0 < S_.numel
  concatenates_S1600000x64_S1600000x64_S1600000x1_S1600000x129_d1 : Shape.Concatenates [S1600000x64, S1600000x64, S1600000x1] S1600000x129 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S1600000x1_S1600000x2_0_1 : S1600000x1.BroadcastsInDim S1600000x2 (![0, 1] : Fin 2 → Fin S1600000x2.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  gather_S100000x2_S1600000x1_S1600000x2_1_0_n_n_0_1_12_wf : GatherDims.WF S100000x2 S1600000x1 S1600000x2 [1] [0] [] [0] [] 1 ![1, 2]
  dot_S1600000x129_S129x64_S1600000x64_1_0_0_1_n_n_wf : DotDims.WF S1600000x129 S129x64 S1600000x64 [1] [0] [0] [1] [] []
  dot_S1600000x64_S64x64_S1600000x64_1_0_0_1_n_n_wf : DotDims.WF S1600000x64 S64x64 S1600000x64 [1] [0] [0] [1] [] []
  dot_S1600000x64_S64x1_S1600000x1_1_0_0_1_n_n_wf : DotDims.WF S1600000x64 S64x1 S1600000x1 [1] [0] [0] [1] [] []
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  scatter_S100000x2_S1600000x1_S1600000x2_1_0_0_1_wf : ScatterDims.WF S100000x2 S1600000x1 S1600000x2 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def dot_S1600000x129_S129x64_S1600000x64_1_0_0_1_n_n : DotDims S1600000x129 S129x64 S1600000x64 where
  lhsContracting := [1]
  rhsContracting := [0]
  lhsNonContracting := [0]
  rhsNonContracting := [1]
  lhsBatch := []
  rhsBatch := []
  wf := dot_S1600000x129_S129x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.IdxRange.lean ====
/-
  The precondition, read at one entry of the edge list: every entry of `edge_index` is a node number, at least `0`
  and below `100000`. The precondition is a conjunction of "all" tests; its last two conjuncts are the two range
  tests on `edge_index`, and an "all" that holds has a one at every index.
-/
import proofs.«400872_j49581102465544_2_alg».proof.Pre_finite_inputs
import Idealize.ShloMosaic.Lib.ReduceAll
import Idealize.ShloMosaic.Lib.ValueIdx
import Idealize.ShloMosaic.Lib.Affine

noncomputable section

namespace Cert.IdxRange

open Idealize.ShloMosaic Idealize.ShloMosaic.ValueIdx Cert.Pre_finite_inputs

variable [Cert.Pre_finite_inputs.Facts]

instance : Subsingleton S_.Idx := ⟨fun a b => funext fun d => d.elim0⟩

/-- The last part of the precondition holds only if both range tests hold at every entry. -/
theorem part4_range (x2 : IVec S2x1600000 32) (a15 : FVec Ideal S64 .f32) (u v : IVec S_ 1)
    (e : fn_part4 (F := Ideal) x2 a15 u v ix0 = 1#1) (i : S2x1600000.Idx) :
    IntOp.cmpi .sge (x2 i) 0#32 = 1#1 ∧ IntOp.cmpi .slt (x2 i) 100000#32 = 1#1 := by
  unfold fn_part4 at e
  dsimp only at e
  obtain ⟨e1, hlt⟩ := IntOp.andi_eq_one.1 e
  obtain ⟨_, hge⟩ := IntOp.andi_eq_one.1 e1
  exact ⟨Host.reduce_andi_all _ _ _ _ ix0 hge i, Host.reduce_andi_all _ _ _ _ ix0 hlt i⟩

/-- Under the precondition every entry of the edge list is a node number. -/
theorem range_of_pre (a0 : FVec Ideal S100000x64 .f32) (a1 : FVec Ideal S100000x2 .f32) (x2 : IVec S2x1600000 32)
    (a3 : FVec Ideal S100000x64 .f32) (a4 : FVec Ideal S129x64 .f32) (a5 : FVec Ideal S64 .f32) (a6 : FVec Ideal S64x64 .f32)
    (a7 : FVec Ideal S64 .f32) (a8 : FVec Ideal S64x64 .f32) (a9 : FVec Ideal S64 .f32) (a10 : FVec Ideal S64x1 .f32)
    (a11 : FVec Ideal S1 .f32) (a12 : FVec Ideal S128x64 .f32) (a13 : FVec Ideal S64 .f32) (a14 : FVec Ideal S64x64 .f32)
    (a15 : FVec Ideal S64 .f32)
    (h : fn (F := Ideal) a0 a1 x2 a3 a4 a5 a6 a7 a8 a9 a10 a11 a12 a13 a14 a15 = fun _ => 1#1) (i : S2x1600000.Idx) :
    IntOp.cmpi .sge (x2 i) 0#32 = 1#1 ∧ IntOp.cmpi .slt (x2 i) 100000#32 = 1#1 :=
  part4_range x2 a15 _ _ (congrFun h ix0) i

end Cert.IdxRange

end
-- ==== Proof.Spec.lean ====
/-
  The mathematics of one message-passing layer, row by row, over the extended reals.

  An edge carries the feature rows of its two end nodes, `hi` and `hj`, and the squared distance `d2` of their
  positions. The message network applies an affine layer to the 129 numbers `(hi, hj, d2)` — written here with the
  weight rows already split into the block that meets `hi`, the block that meets `hj` and the single row that meets
  `d2` —, a rectifier, a second affine layer and a rectifier. A further two-layer network turns the message into one
  weight per edge, which scales the edge's relative position. A node's update applies a two-layer network to its own
  row and its aggregated message row and adds the result to its row.

  Weights are curried (`w k c` is row `k`, column `c`), so that the same functions serve a weight matrix read
  through a slice and one read whole. The last two lemmas split a sum over 129 (or 128) terms into its blocks:
  addition on the extended reals is commutative and associative, which is all they use.
-/
import Idealize.ShloMosaic.PureOps.Ideal
import Mathlib.Algebra.BigOperators.Fin

noncomputable section

namespace Cert.Spec

open Idealize.ShloMosaic
open scoped BigOperators

/-- The rectifier: the larger of `x` and zero (zero spelt as the word both programs print). -/
def relu (x : EReal) : EReal := max x (Ideal.ofBits .f32 0x00000000#32)

/-- An affine layer's column `c`: the row `x` against column `c` of `w`, plus the bias. -/
def dense (x : Fin 64 → EReal) (w : Fin 64 → Fin 64 → EReal) (b : Fin 64 → EReal) (c : Fin 64) : EReal :=
  (∑ k : Fin 64, x k * w k c) + b c

/-- The message network's first layer on `(hi, hj, d2)`, rectified. -/
def msg1 (hi hj : Fin 64 → EReal) (d2 : EReal) (wi wj : Fin 64 → Fin 64 → EReal) (wd b : Fin 64 → EReal) (c : Fin 64) : EReal :=
  relu ((((∑ k : Fin 64, hi k * wi k c) + (∑ k : Fin 64, hj k * wj k c)) + d2 * wd c) + b c)

/-- The message: the second layer on the first, rectified. -/
def msg2 (hi hj : Fin 64 → EReal) (d2 : EReal) (wi wj : Fin 64 → Fin 64 → EReal) (wd b1 : Fin 64 → EReal)
    (w2 : Fin 64 → Fin 64 → EReal) (b2 : Fin 64 → EReal) (c : Fin 64) : EReal :=
  relu (dense (msg1 hi hj d2 wi wj wd b1) w2 b2 c)

/-- The edge's position weight from its message `m`: an affine layer, a rectifier, and one more affine layer with a
    single output. -/
def posw (m : Fin 64 → EReal) (wp1 : Fin 64 → Fin 64 → EReal) (bp1 : Fin 64 → EReal) (wp2 : Fin 64 → EReal) (bp2 : EReal) : EReal :=
  (∑ k : Fin 64, relu (dense m wp1 bp1 k) * wp2 k) + bp2

/-- The node update: the node's row `h` plus a two-layer network of `h` and its aggregated message row `a`. -/
def upd (h a : Fin 64 → EReal) (wh wa : Fin 64 → Fin 64 → EReal) (b1 : Fin 64 → EReal) (w2 : Fin 64 → Fin 64 → EReal)
    (b2 : Fin 64 → EReal) (c : Fin 64) : EReal :=
  h c + ((∑ k : Fin 64, relu (((∑ j : Fin 64, h j * wh j k) + (∑ j : Fin 64, a j * wa j k)) + b1 k) * w2 k c) + b2 c)

/-- A sum of 129 terms is the sum of its first 64, its next 64 and its last. -/
theorem sum129 (f : Fin 129 → EReal) :
    ∑ k : Fin 129, f k = ((∑ k : Fin 64, f ⟨k.val, by omega⟩) + (∑ k : Fin 64, f ⟨64 + k.val, by omega⟩)) + f ⟨128, by omega⟩ := by
  rw [Fin.sum_univ_castSucc (n := 128) f]
  congr 1
  exact Fin.sum_univ_add (a := 64) (b := 64) (fun k : Fin 128 => f k.castSucc)

/-- A sum of 128 terms is the sum of its first 64 and its next 64. -/
theorem sum128 (f : Fin 128 → EReal) :
    ∑ k : Fin 128, f k = (∑ k : Fin 64, f ⟨k.val, by omega⟩) + (∑ k : Fin 64, f ⟨64 + k.val, by omega⟩) :=
  Fin.sum_univ_add (a := 64) (b := 64) f

end Cert.Spec

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.BodyMsg.lean ====
/-
  The message kernel's block, read at an index.

  At a grid point the kernel holds 4000 edges: their two feature blocks `x0`, `x1`, their squared distances `x2`, their
  relative positions `x3`, and the weights. What it leaves in its first output block at `(p, q)` is the message of edge
  `p` at feature `q`; what it leaves in its second at `(p, d)` is edge `p`'s relative position at `d` times the edge's
  position weight. Both depend on row `p` of the edge blocks only.
-/
import proofs.«400872_j49581102465544_2_alg».proof.Proof.Gen.KernelIdeal.Frame
import proofs.«400872_j49581102465544_2_alg».proof.Proof.Spec
import proofs.«400872_j49581102465544_2_alg».proof.Proof.LibRowOps

noncomputable section

namespace Cert.BodyMsg

open Idealize.ShloMosaic Idealize.ShloMosaic.ValueIdx Cert.KernelIdeal Cert.KernelIdeal.Gen

section RowLemmas

open scoped BigOperators

/-! ## Row lemmas, for any number of rows -/

/-- A `[a, 1]` column broadcast to `[a, b]` reads, at `(p, c)`, the column's entry in row `p`. -/
theorem colBcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An affine layer — a product into the zero accumulator plus a `[1, N]` bias row broadcast down the rows — at
    `(p, j)`, from row `p` of the left operand. -/
theorem affine_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨2, ![1, N]⟩ .f32)
    (hb : (⟨2, ![1, N]⟩ : Shape).Broadcasts ⟨2, ![n, N]⟩) (p : Fin n) (j : Fin N) (x : Fin K → EReal)
    (hx : ∀ k, A (ix2 p k) = x k) :
    addf (matmul d none A W (constant ⟨2, ![n, N]⟩ .f32 0x00000000#32)) (broadcastTo ⟨2, ![n, N]⟩ b hb) (ix2 p j)
      = (∑ k : Fin K, x k * W (ix2 k j)) + b (ix2 (0 : Fin 1) j) := by
  show matmul d none A W (constant ⟨2, ![n, N]⟩ .f32 0x00000000#32) (ix2 p j) + broadcastTo ⟨2, ![n, N]⟩ b hb (ix2 p j) = _
  rw [LibRowOps.prod_apply d hd A W p j x hx, broadcastTo_1b_ab_apply]

/-- The same layer under the rectifier. -/
theorem reluAffine_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨2, ![1, N]⟩ .f32)
    (hb : (⟨2, ![1, N]⟩ : Shape).Broadcasts ⟨2, ![n, N]⟩) (p : Fin n) (j : Fin N) (x : Fin K → EReal)
    (hx : ∀ k, A (ix2 p k) = x k) :
    maximumf (addf (matmul d none A W (constant ⟨2, ![n, N]⟩ .f32 0x00000000#32)) (broadcastTo ⟨2, ![n, N]⟩ b hb))
        (broadcast ⟨2, ![n, N]⟩ (Scalar.ofBits (F := Ideal) .f32 0x00000000#32)) (ix2 p j)
      = Spec.relu ((∑ k : Fin K, x k * W (ix2 k j)) + b (ix2 (0 : Fin 1) j)) :=
  congrArg Spec.relu (affine_apply d hd A W b hb p j x hx)

/-- The message network's first layer: two products, the distance column times its weight row, the bias row, and the
    rectifier, at `(p, c)`. -/
theorem first_apply {n : ℕ} {φa φw : FTy} (d : DotDims ⟨2, ![n, 64]⟩ ⟨2, ![64, 64]⟩ ⟨2, ![n, 64]⟩) (hd : d = DotDims.plain n 64 64)
    (A B : FVec Ideal ⟨2, ![n, 64]⟩ φa) (Wa Wb : FVec Ideal ⟨2, ![64, 64]⟩ φw)
    (D : FVec Ideal ⟨2, ![n, 1]⟩ .f32) (wd b : FVec Ideal ⟨2, ![1, 64]⟩ .f32)
    (hD : (⟨2, ![n, 1]⟩ : Shape).Broadcasts ⟨2, ![n, 64]⟩) (hr : (⟨2, ![1, 64]⟩ : Shape).Broadcasts ⟨2, ![n, 64]⟩)
    (p : Fin n) (c : Fin 64) :
    maximumf
        (addf
          (addf
            (addf (matmul d none A Wa (constant ⟨2, ![n, 64]⟩ .f32 0x00000000#32))
              (matmul d none B Wb (constant ⟨2, ![n, 64]⟩ .f32 0x00000000#32)))
            (mulf (broadcastTo ⟨2, ![n, 64]⟩ D hD) (broadcastTo ⟨2, ![n, 64]⟩ wd hr)))
          (broadcastTo ⟨2, ![n, 64]⟩ b hr))
        (broadcast ⟨2, ![n, 64]⟩ (Scalar.ofBits (F := Ideal) .f32 0x00000000#32)) (ix2 p c)
      = Spec.msg1 (fun k => A (ix2 p k)) (fun k => B (ix2 p k)) (D (ix2 p (0 : Fin 1)))
          (fun k c => Wa (ix2 k c)) (fun k c => Wb (ix2 k c)) (fun c => wd (ix2 (0 : Fin 1) c))
          (fun c => b (ix2 (0 : Fin 1) c)) c := by
  show Spec.relu
      (((matmul d none A Wa (constant ⟨2, ![n, 64]⟩ .f32 0x00000000#32) (ix2 p c)
          + matmul d none B Wb (constant ⟨2, ![n, 64]⟩ .f32 0x00000000#32) (ix2 p c))
        + broadcastTo ⟨2, ![n, 64]⟩ D hD (ix2 p c) * broadcastTo ⟨2, ![n, 64]⟩ wd hr (ix2 p c))
        + broadcastTo ⟨2, ![n, 64]⟩ b hr (ix2 p c)) = _
  rw [LibRowOps.matmul_plain_apply d hd none A Wa p c, LibRowOps.matmul_plain_apply d hd none B Wb p c,
    colBcast_apply, broadcastTo_1b_ab_apply, broadcastTo_1b_ab_apply]
  rfl

/-! ## The payloads at an index -/

/-- The second layer's sum, before the rectifier, at `(p, q)`. -/
theorem pay3_apply (v0 v3 : Vec Ideal S4000x64 .f32) (v6 v9 : Vec Ideal S64x64 .f32) (v15 : Vec Ideal S4000x1 .f32)
    (v17 v23 : Vec Ideal S1x64 .f32) (v30 : Vec Ideal S64x64 .f32) (v33 : Vec Ideal S1x64 .f32) (p : Fin 4000) (q : Fin 64) :
    k0_pay3 (F := Ideal) v0 v3 v6 v9 v15 v17 v23 v30 v33 (ix2 p q)
      = Spec.dense (Spec.msg1 (fun k => v0 (ix2 p k)) (fun k => v3 (ix2 p k)) (v15 (ix2 p (0 : Fin 1)))
          (fun k c => v6 (ix2 k c)) (fun k c => v9 (ix2 k c)) (fun c => v17 (ix2 (0 : Fin 1) c)) (fun c => v23 (ix2 (0 : Fin 1) c)))
          (fun k c => v30 (ix2 k c)) (fun c => v33 (ix2 (0 : Fin 1) c)) q := by
  unfold k0_pay3
  simp only [shapeCast_self]
  exact affine_apply dot_S4000x64_S64x64_S4000x64_1_0_0_1_n_n rfl _ (truncf .bf16 v30 bitsLt_bf16_f32) v33
    broadcasts_S1x64_S4000x64 p q _
    (fun k => first_apply dot_S4000x64_S64x64_S4000x64_1_0_0_1_n_n rfl
      (truncf .bf16 v0 bitsLt_bf16_f32) (truncf .bf16 v3 bitsLt_bf16_f32)
      (truncf .bf16 v6 bitsLt_bf16_f32) (truncf .bf16 v9 bitsLt_bf16_f32) v15 v17 v23
      broadcasts_S4000x1_S4000x64 broadcasts_S1x64_S4000x64 p k)

/-- The message — the second layer under the rectifier — at `(p, q)`. -/
theorem pay1_pay3_apply (v0 v3 : Vec Ideal S4000x64 .f32) (v6 v9 : Vec Ideal S64x64 .f32) (v15 : Vec Ideal S4000x1 .f32)
    (v17 v23 : Vec Ideal S1x64 .f32) (v30 : Vec Ideal S64x64 .f32) (v33 : Vec Ideal S1x64 .f32) (p : Fin 4000) (q : Fin 64) :
    k0_pay1 (F := Ideal) (k0_pay3 (F := Ideal) v0 v3 v6 v9 v15 v17 v23 v30 v33) (ix2 p q)
      = Spec.msg2 (fun k => v0 (ix2 p k)) (fun k => v3 (ix2 p k)) (v15 (ix2 p (0 : Fin 1)))
          (fun k c => v6 (ix2 k c)) (fun k c => v9 (ix2 k c)) (fun c => v17 (ix2 (0 : Fin 1) c)) (fun c => v23 (ix2 (0 : Fin 1) c))
          (fun k c => v30 (ix2 k c)) (fun c => v33 (ix2 (0 : Fin 1) c)) q := by
  unfold k0_pay1
  exact congrArg Spec.relu (pay3_apply v0 v3 v6 v9 v15 v17 v23 v30 v33 p q)

/-- The position message at `(p, d)`, from the message row `m` of edge `p`. -/
theorem pay2_apply (v36 : FVec Ideal S4000x64 .f32) (v41 : Vec Ideal S64x64 .f32) (v44 : Vec Ideal S1x64 .f32)
    (v51 : Vec Ideal S64x1 .f32) (v54 : Vec Ideal S1x1 .f32) (v58 : Vec Ideal S4000x2 .f32) (p : Fin 4000) (d : Fin 2)
    (m : Fin 64 → EReal) (hm : ∀ k, k0_pay1 (F := Ideal) v36 (ix2 p k) = m k) :
    k0_pay2 (F := Ideal) v36 v41 v44 v51 v54 v58 (ix2 p d)
      = v58 (ix2 p d) * Spec.posw m (fun k c => v41 (ix2 k c)) (fun c => v44 (ix2 (0 : Fin 1) c))
          (fun k => v51 (ix2 k (0 : Fin 1))) (v54 (ix2 (0 : Fin 1) (0 : Fin 1))) := by
  unfold k0_pay2
  simp only [shapeCast_self]
  refine congrArg (v58 (ix2 p d) * ·) ?_
  refine (colBcast_apply _ broadcasts_S4000x1_S4000x2 p d).trans ?_
  exact affine_apply dot_S4000x64_S64x1_S4000x1_1_0_0_1_n_n rfl _ (truncf .bf16 v51 bitsLt_bf16_f32) v54
    broadcasts_S1x1_S4000x1 p (0 : Fin 1) _
    (fun k => reluAffine_apply dot_S4000x64_S64x64_S4000x64_1_0_0_1_n_n rfl
      (truncf .bf16 (k0_pay1 (F := Ideal) v36) bitsLt_bf16_f32) (truncf .bf16 v41 bitsLt_bf16_f32) v44
      broadcasts_S1x64_S4000x64 p k m hm)

/-! ## The two output blocks -/

/-- The zero offsets of a whole-block access, as the constant function. -/
theorem zeros2 : (![0, 0] : Fin 2 → Nat) = fun _ => 0 := funext fun a => by fin_cases a <;> rfl

end RowLemmas

/-- The message block at `(p, q)`. -/
theorem msg_block (x0 x1 : Vec Ideal S4000x64 .f32) (x2 : Vec Ideal S4000x1 .f32) (x3 : Vec Ideal S4000x2 .f32)
    (x4 x5 : Vec Ideal S64x64 .f32) (x6 x7 : Vec Ideal S1x64 .f32) (x8 : Vec Ideal S64x64 .f32) (x9 : Vec Ideal S1x64 .f32)
    (x10 : Vec Ideal S64x64 .f32) (x11 : Vec Ideal S1x64 .f32) (x12 : Vec Ideal S64x1 .f32) (x13 : Vec Ideal S1x1 .f32)
    (p : Fin 4000) (q : Fin 64) :
    out0_14 (F := Ideal) x0 x1 x2 x3 x4 x5 x6 x7 x8 x9 x10 x11 x12 x13 (ix2 p q)
      = Spec.msg2 (fun k => x0 (ix2 p k)) (fun k => x1 (ix2 p k)) (x2 (ix2 p (0 : Fin 1)))
          (fun k c => x4 (ix2 k c)) (fun k c => x5 (ix2 k c)) (fun c => x6 (ix2 (0 : Fin 1) c)) (fun c => x7 (ix2 (0 : Fin 1) c))
          (fun k c => x8 (ix2 k c)) (fun c => x9 (ix2 (0 : Fin 1) c)) q := by
  unfold out0_14
  rw [View.canon_unit_zero zeros2]
  simp only [View.ld_unit_zero (S := S4000x64) zeros2, View.ld_unit_zero (S := S64x64) zeros2,
    View.ld_unit_zero (S := S4000x1) zeros2, View.ld_unit_zero (S := S1x64) zeros2]
  exact pay1_pay3_apply x0 x1 x4 x5 x2 x6 x7 x8 x9 p q

/-- The position-message block at `(p, d)`. -/
theorem posmsg_block (x0 x1 : Vec Ideal S4000x64 .f32) (x2 : Vec Ideal S4000x1 .f32) (x3 : Vec Ideal S4000x2 .f32)
    (x4 x5 : Vec Ideal S64x64 .f32) (x6 x7 : Vec Ideal S1x64 .f32) (x8 : Vec Ideal S64x64 .f32) (x9 : Vec Ideal S1x64 .f32)
    (x10 : Vec Ideal S64x64 .f32) (x11 : Vec Ideal S1x64 .f32) (x12 : Vec Ideal S64x1 .f32) (x13 : Vec Ideal S1x1 .f32)
    (p : Fin 4000) (d : Fin 2) :
    out0_15 (F := Ideal) x0 x1 x2 x3 x4 x5 x6 x7 x8 x9 x10 x11 x12 x13 (ix2 p d)
      = x3 (ix2 p d) * Spec.posw
          (Spec.msg2 (fun k => x0 (ix2 p k)) (fun k => x1 (ix2 p k)) (x2 (ix2 p (0 : Fin 1)))
            (fun k c => x4 (ix2 k c)) (fun k c => x5 (ix2 k c)) (fun c => x6 (ix2 (0 : Fin 1) c)) (fun c => x7 (ix2 (0 : Fin 1) c))
            (fun k c => x8 (ix2 k c)) (fun c => x9 (ix2 (0 : Fin 1) c)))
          (fun k c => x10 (ix2 k c)) (fun c => x11 (ix2 (0 : Fin 1) c)) (fun k => x12 (ix2 k (0 : Fin 1))) (x13 (ix2 (0 : Fin 1) (0 : Fin 1))) := by
  unfold out0_15
  rw [View.canon_unit_zero zeros2]
  simp only [View.ld_unit_zero (S := S4000x64) zeros2, View.ld_unit_zero (S := S64x64) zeros2,
    View.ld_unit_zero (S := S4000x1) zeros2, View.ld_unit_zero (S := S1x64) zeros2,
    View.ld_unit_zero (S := S64x1) zeros2, View.ld_unit_zero (S := S1x1) zeros2,
    View.ld_unit_zero (S := S4000x2) zeros2]
  exact pay2_apply _ x10 x11 x12 x13 x3 p d _ (fun k => pay1_pay3_apply x0 x1 x4 x5 x2 x6 x7 x8 x9 p k)

end Cert.BodyMsg

end
-- ==== Proof.Region0.lean ====
/-
  The message kernel's two output arrays after its run, as functions of the arrays the region is entered with.

  The region walks the 1,600,000 edges in 400 blocks of 4000 rows. Block `t` of an edge array is its rows
  `4000 t … 4000 t + 3999`; the weights are fetched whole at every point. What a point writes back is, row by row,
  the message (and the weighted relative position) of the edge that row belongs to, so the blocks are restrictions of
  one function of the whole arrays; and since every edge lies in exactly the block of the point `e / 4000`, the blocks
  tile the arrays and the arrays end holding that function.
-/
import proofs.«400872_j49581102465544_2_alg».proof.Proof.Gen.KernelIdeal.Frame
import proofs.«400872_j49581102465544_2_alg».proof.Proof.BodyMsg
import Idealize.ShloMosaic.Lib.Pipeline.Value
import Idealize.ShloMosaic.Lib.ValueIdx

set_option maxRecDepth 16384

noncomputable section

namespace Cert.Region0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The all-zero offset of a whole-block rectangle. -/
theorem hz : (![0, 0] : Fin 2 → Nat) = fun _ => 0 := funext fun a => by fin_cases a <;> rfl

/-- A grid point's number is below the number of points. -/
theorem t_lt (t : Fin cfg0.N) : t.val < 400 := lt_of_lt_of_eq t.isLt N_0

/-- The printed block index maps, decided over the grid: a row window's block at point `t` is block `t` along the
    rows and block `0` along the columns; a weight window's block is the whole array at every point. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_14.index t (0 : Fin 2) = t.val
    ∧ win0_14.index t (1 : Fin 2) = 0
    ∧ win0_15.index t (0 : Fin 2) = t.val
    ∧ win0_15.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0 :=
  (by decide +kernel : ∀ t : Fin grid0.N, _)

/-- Row `p` of window 0's block at point `t` is row `t * 4000 + p` of its array. -/
theorem blk0 (c : Dev nD) (t : Fin cfg0.N) (p : Fin 4000) (k : Fin 64) :
    iblk0 V c 0 t (ix2 p k) = V c main_v4 (ix2 (⟨t.val * 4000 + p.val, by have := t_lt t; omega⟩ : Fin 1600000) k) := by
  show V c main_v4 (((cfg0.win 0).blk t).view.emb (ix2 p k)) = _
  refine congrArg (V c main_v4) (funext fun a => Fin.ext ?_)
  match a with
  | ⟨0, _⟩ => show win0_0.index t (0 : Fin 2) * 4000 + 1 * p.val = t.val * 4000 + p.val; rw [(idx_facts t).1]; omega
  | ⟨1, _⟩ => show win0_0.index t (1 : Fin 2) * 64 + 1 * k.val = k.val; rw [(idx_facts t).2.1]; omega

/-- Row `p` of window 1's block at point `t` is row `t * 4000 + p` of its array. -/
theorem blk1 (c : Dev nD) (t : Fin cfg0.N) (p : Fin 4000) (k : Fin 64) :
    iblk0 V c 1 t (ix2 p k) = V c main_v5 (ix2 (⟨t.val * 4000 + p.val, by have := t_lt t; omega⟩ : Fin 1600000) k) := by
  show V c main_v5 (((cfg0.win 1).blk t).view.emb (ix2 p k)) = _
  refine congrArg (V c main_v5) (funext fun a => Fin.ext ?_)
  match a with
  | ⟨0, _⟩ => show win0_1.index t (0 : Fin 2) * 4000 + 1 * p.val = t.val * 4000 + p.val; rw [(idx_facts t).2.2.1]; omega
  | ⟨1, _⟩ => show win0_1.index t (1 : Fin 2) * 64 + 1 * k.val = k.val; rw [(idx_facts t).2.2.2.1]; omega

/-- Row `p` of window 2's block at point `t` is row `t * 4000 + p` of its array. -/
theorem blk2 (c : Dev nD) (t : Fin cfg0.N) (p : Fin 4000) (k : Fin 1) :
    iblk0 V c 2 t (ix2 p k) = V c main_v11 (ix2 (⟨t.val * 4000 + p.val, by have := t_lt t; omega⟩ : Fin 1600000) k) := by
  show V c main_v11 (((cfg0.win 2).blk t).view.emb (ix2 p k)) = _
  refine congrArg (V c main_v11) (funext fun a => Fin.ext ?_)
  match a with
  | ⟨0, _⟩ => show win0_2.index t (0 : Fin 2) * 4000 + 1 * p.val = t.val * 4000 + p.val; rw [(idx_facts t).2.2.2.2.1]; omega
  | ⟨1, _⟩ => show win0_2.index t (1 : Fin 2) * 1 + 1 * k.val = k.val; rw [(idx_facts t).2.2.2.2.2.1]; omega

/-- Row `p` of window 3's block at point `t` is row `t * 4000 + p` of its array. -/
theorem blk3 (c : Dev nD) (t : Fin cfg0.N) (p : Fin 4000) (k : Fin 2) :
    iblk0 V c 3 t (ix2 p k) = V c main_v8 (ix2 (⟨t.val * 4000 + p.val, by have := t_lt t; omega⟩ : Fin 1600000) k) := by
  show V c main_v8 (((cfg0.win 3).blk t).view.emb (ix2 p k)) = _
  refine congrArg (V c main_v8) (funext fun a => Fin.ext ?_)
  match a with
  | ⟨0, _⟩ => show win0_3.index t (0 : Fin 2) * 4000 + 1 * p.val = t.val * 4000 + p.val; rw [(idx_facts t).2.2.2.2.2.2.1]; omega
  | ⟨1, _⟩ => show win0_3.index t (1 : Fin 2) * 2 + 1 * k.val = k.val; rw [(idx_facts t).2.2.2.2.2.2.2.1]; omega

/-- Window 4's block at any point is its whole array. -/
theorem blk4 (c : Dev nD) (t : Fin cfg0.N) (p : Fin 64) (k : Fin 64) :
    iblk0 V c 4 t (ix2 p k) = V c main_v12 (ix2 p k) := by
  show V c main_v12 (((cfg0.win 4).blk t).view.emb (ix2 p k)) = _
  refine congrArg (V c main_v12) (funext fun a => Fin.ext ?_)
  match a with
  | ⟨0, _⟩ => show win0_4.index t (0 : Fin 2) * 64 + 1 * p.val = p.val; rw [(idx_facts t).2.2.2.2.2.2.2.2.2.2.2.2.1]; omega
  | ⟨1, _⟩ => show win0_4.index t (1 : Fin 2) * 64 + 1 * k.val = k.val; rw [(idx_facts t).2.2.2.2.2.2.2.2.2.2.2.2.2.1]; omega

/-- Window 5's block at any point is its whole array. -/
theorem blk5 (c : Dev nD) (t : Fin cfg0.N) (p : Fin 64) (k : Fin 64) :
    iblk0 V c 5 t (ix2 p k) = V c main_v13 (ix2 p k) := by
  show V c main_v13 (((cfg0.win 5).blk t).view.emb (ix2 p k)) = _
  refine congrArg (V c main_v13) (funext fun a => Fin.ext ?_)
  match a with
  | ⟨0, _⟩ => show win0_5.index t (0 : Fin 2) * 64 + 1 * p.val = p.val; rw [(idx_facts t).2.2.2.2.2.2.2.2.2.2.2.2.2.2.1]; omega
  | ⟨1, _⟩ => show win0_5.index t (1 : Fin 2) * 64 + 1 * k.val = k.val; rw [(idx_facts t).2.2.2.2.2.2.2.2.2.2.2.2.2.2.2.1]; omega

/-- Window 6's block at any point is its whole array. -/
theorem blk6 (c : Dev nD) (t : Fin cfg0.N) (p : Fin 1) (k : Fin 64) :
    iblk0 V c 6 t (ix2 p k) = V c main_v14 (ix2 p k) := by
  show V c main_v14 (((cfg0.win 6).blk t).view.emb (ix2 p k)) = _
  refine congrArg (V c main_v14) (funext fun a => Fin.ext ?_)
  match a with
  | ⟨0, _⟩ => show win0_6.index t (0 : Fin 2) * 1 + 1 * p.val = p.val; rw [(idx_facts t).2.2.2.2.2.2.2.2.2.2.2.2.2.2.2.2.1]; omega
  | ⟨1, _⟩ => show win0_6.index t (1 : Fin 2) * 64 + 1 * k.val = k.val; rw [(idx_facts t).2.2.2.2.2.2.2.2.2.2.2.2.2.2.2.2.2.1]; omega

/-- Window 7's block at any point is its whole array. -/
theorem blk7 (c : Dev nD) (t : Fin cfg0.N) (p : Fin 1) (k : Fin 64) :
    iblk0 V c 7 t (ix2 p k) = V c main_v15 (ix2 p k) := by
  show V c main_v15 (((cfg0.win 7).blk t).view.emb (ix2 p k)) = _
  refine congrArg (V c main_v15) (funext fun a => Fin.ext ?_)
  match a with
  | ⟨0, _⟩ => show win0_7.index t (0 : Fin 2) * 1 + 1 * p.val = p.val; rw [(idx_facts t).2.2.2.2.2.2.2.2.2.2.2.2.2.2.2.2.2.2.1]; omega
  | ⟨1, _⟩ => show win0_7.index t (1 : Fin 2) * 64 + 1 * k.val = k.val; rw [(idx_facts t).2.2.2.2.2.2.2.2.2.2.2.2.2.2.2.2.2.2.2.1]; omega

/-- Window 8's block at any point is its whole array. -/
theorem blk8 (c : Dev nD) (t : Fin cfg0.N) (p : Fin 64) (k : Fin 64) :
    iblk0 V c 8 t (ix2 p k) = V c main_arg6 (ix2 p k) := by
  show V c main_arg6 (((cfg0.win 8).blk t).view.emb (ix2 p k)) = _
  refine congrArg (V c main_arg6) (funext fun a => Fin.ext ?_)
  match a with
  | ⟨0, _⟩ => show win0_8.index t (0 : Fin 2) * 64 + 1 * p.val = p.val; rw [(idx_facts t).2.2.2.2.2.2.2.2.2.2.2.2.2.2.2.2.2.2.2.2.1]; omega
  | ⟨1, _⟩ => show win0_8.index t (1 : Fin 2) * 64 + 1 * k.val = k.val; rw [(idx_facts t).2.2.2.2.2.2.2.2.2.2.2.2.2.2.2.2.2.2.2.2.2.1]; omega

/-- Window 9's block at any point is its whole array. -/
theorem blk9 (c : Dev nD) (t : Fin cfg0.N) (p : Fin 1) (k : Fin 64) :
    iblk0 V c 9 t (ix2 p k) = V c main_v16 (ix2 p k) := by
  show V c main_v16 (((cfg0.win 9).blk t).view.emb (ix2 p k)) = _
  refine congrArg (V c main_v16) (funext fun a => Fin.ext ?_)
  match a with
  | ⟨0, _⟩ => show win0_9.index t (0 : Fin 2) * 1 + 1 * p.val = p.val; rw [(idx_facts t).2.2.2.2.2.2.2.2.2.2.2.2.2.2.2.2.2.2.2.2.2.2.1]; omega
  | ⟨1, _⟩ => show win0_9.index t (1 : Fin 2) * 64 + 1 * k.val = k.val; rw [(idx_facts t).2.2.2.2.2.2.2.2.2.2.2.2.2.2.2.2.2.2.2.2.2.2.2.1]; omega

/-- Window 10's block at any point is its whole array. -/
theorem blk10 (c : Dev nD) (t : Fin cfg0.N) (p : Fin 64) (k : Fin 64) :
    iblk0 V c 10 t (ix2 p k) = V c main_arg8 (ix2 p k) := by
  show V c main_arg8 (((cfg0.win 10).blk t).view.emb (ix2 p k)) = _
  refine congrArg (V c main_arg8) (funext fun a => Fin.ext ?_)
  match a with
  | ⟨0, _⟩ => show win0_10.index t (0 : Fin 2) * 64 + 1 * p.val = p.val; rw [(idx_facts t).2.2.2.2.2.2.2.2.2.2.2.2.2.2.2.2.2.2.2.2.2.2.2.2.1]; omega
  | ⟨1, _⟩ => show win0_10.index t (1 : Fin 2) * 64 + 1 * k.val = k.val; rw [(idx_facts t).2.2.2.2.2.2.2.2.2.2.2.2.2.2.2.2.2.2.2.2.2.2.2.2.2.1]; omega

/-- Window 11's block at any point is its whole array. -/
theorem blk11 (c : Dev nD) (t : Fin cfg0.N) (p : Fin 1) (k : Fin 64) :
    iblk0 V c 11 t (ix2 p k) = V c main_v17 (ix2 p k) := by
  show V c main_v17 (((cfg0.win 11).blk t).view.emb (ix2 p k)) = _
  refine congrArg (V c main_v17) (funext fun a => Fin.ext ?_)
  match a with
  | ⟨0, _⟩ => show win0_11.index t (0 : Fin 2) * 1 + 1 * p.val = p.val; rw [(idx_facts t).2.2.2.2.2.2.2.2.2.2.2.2.2.2.2.2.2.2.2.2.2.2.2.2.2.2.1]; omega
  | ⟨1, _⟩ => show win0_11.index t (1 : Fin 2) * 64 + 1 * k.val = k.val; rw [(idx_facts t).2.2.2.2.2.2.2.2.2.2.2.2.2.2.2.2.2.2.2.2.2.2.2.2.2.2.2.1]; omega

/-- Window 12's block at any point is its whole array. -/
theorem blk12 (c : Dev nD) (t : Fin cfg0.N) (p : Fin 64) (k : Fin 1) :
    iblk0 V c 12 t (ix2 p k) = V c main_arg10 (ix2 p k) := by
  show V c main_arg10 (((cfg0.win 12).blk t).view.emb (ix2 p k)) = _
  refine congrArg (V c main_arg10) (funext fun a => Fin.ext ?_)
  match a with
  | ⟨0, _⟩ => show win0_12.index t (0 : Fin 2) * 64 + 1 * p.val = p.val; rw [(idx_facts t).2.2.2.2.2.2.2.2.2.2.2.2.2.2.2.2.2.2.2.2.2.2.2.2.2.2.2.2.1]; omega
  | ⟨1, _⟩ => show win0_12.index t (1 : Fin 2) * 1 + 1 * k.val = k.val; rw [(idx_facts t).2.2.2.2.2.2.2.2.2.2.2.2.2.2.2.2.2.2.2.2.2.2.2.2.2.2.2.2.2.1]; omega

/-- Window 13's block at any point is its whole array. -/
theorem blk13 (c : Dev nD) (t : Fin cfg0.N) (p : Fin 1) (k : Fin 1) :
    iblk0 V c 13 t (ix2 p k) = V c main_v18 (ix2 p k) := by
  show V c main_v18 (((cfg0.win 13).blk t).view.emb (ix2 p k)) = _
  refine congrArg (V c main_v18) (funext fun a => Fin.ext ?_)
  match a with
  | ⟨0, _⟩ => show win0_13.index t (0 : Fin 2) * 1 + 1 * p.val = p.val; rw [(idx_facts t).2.2.2.2.2.2.2.2.2.2.2.2.2.2.2.2.2.2.2.2.2.2.2.2.2.2.2.2.2.2.1]; omega
  | ⟨1, _⟩ => show win0_13.index t (1 : Fin 2) * 1 + 1 * k.val = k.val; rw [(idx_facts t).2.2.2.2.2.2.2.2.2.2.2.2.2.2.2.2.2.2.2.2.2.2.2.2.2.2.2.2.2.2.2]; omega

/-- The message of edge `e` at feature `q`, from the arrays the region is entered with. -/
def msgAt (c : Dev nD) (e : Fin 1600000) (q : Fin 64) : EReal :=
  Spec.msg2 (fun k => V c main_v4 (ix2 e k)) (fun k => V c main_v5 (ix2 e k)) (V c main_v11 (ix2 e (0 : Fin 1)))
    (fun k j => V c main_v12 (ix2 k j)) (fun k j => V c main_v13 (ix2 k j)) (fun j => V c main_v14 (ix2 (0 : Fin 1) j))
    (fun j => V c main_v15 (ix2 (0 : Fin 1) j)) (fun k j => V c main_arg6 (ix2 k j)) (fun j => V c main_v16 (ix2 (0 : Fin 1) j)) q

/-- The relative position of edge `e`'s end nodes at coordinate `d`. -/
abbrev relAt (c : Dev nD) (e : Fin 1600000) (d : Fin 2) : EReal := V c main_v8 (ix2 e d)

/-- The position message of edge `e` at coordinate `d`: its relative position times its position weight. -/
def posAt (c : Dev nD) (e : Fin 1600000) (d : Fin 2) : EReal :=
  relAt V c e d * Spec.posw (msgAt V c e) (fun k j => V c main_arg8 (ix2 k j)) (fun j => V c main_v17 (ix2 (0 : Fin 1) j))
    (fun k => V c main_arg10 (ix2 k (0 : Fin 1))) (V c main_v18 (ix2 (0 : Fin 1) (0 : Fin 1)))

/-- The message array: every edge's message. -/
def msgArr (c : Dev nD) : S1600000x64.Idx → EReal := fun i => msgAt V c ⟨(i 0).val, idx2_lt0 i⟩ ⟨(i 1).val, idx2_lt1 i⟩

/-- The array at an index whose coordinates are `e` and `q`. -/
theorem msgArr_of (c : Dev nD) (i : S1600000x64.Idx) (e : Fin 1600000) (q : Fin 64) (h0 : (i 0).val = e.val) (h1 : (i 1).val = q.val) :
    msgArr V c i = msgAt V c e q := by
  unfold msgArr
  congr 1
  · exact Fin.ext h0
  · exact Fin.ext h1

/-- The position-message array. -/
def posArr (c : Dev nD) : S1600000x2.Idx → EReal := fun i => posAt V c ⟨(i 0).val, idx2_lt0 i⟩ ⟨(i 1).val, idx2_lt1 i⟩

/-- The array at an index whose coordinates are `e` and `q`. -/
theorem posArr_of (c : Dev nD) (i : S1600000x2.Idx) (e : Fin 1600000) (q : Fin 2) (h0 : (i 0).val = e.val) (h1 : (i 1).val = q.val) :
    posArr V c i = posAt V c e q := by
  unfold posArr
  congr 1
  · exact Fin.ext h0
  · exact Fin.ext h1

/-- Where row `p`, column `q` of output window 14's block at point `t` lies in its array. -/
theorem emb14 (c : Dev nD) (t : Fin cfg0.N) (p : Fin 4000) (q : Fin 64) :
    msgArr V c (((cfg0.win 14).blk t).view.emb (ix2 p q))
      = msgAt V c (⟨t.val * 4000 + p.val, by have := t_lt t; omega⟩ : Fin 1600000) q := by
  have h0 : ((((cfg0.win 14).blk t).view.emb (ix2 p q)) 0).val = t.val * 4000 + p.val := by
    show win0_14.index t (0 : Fin 2) * 4000 + 1 * p.val = _; rw [(idx_facts t).2.2.2.2.2.2.2.2.1]; omega
  have h1 : ((((cfg0.win 14).blk t).view.emb (ix2 p q)) 1).val = q.val := by
    show win0_14.index t (1 : Fin 2) * 64 + 1 * q.val = _; rw [(idx_facts t).2.2.2.2.2.2.2.2.2.1]; omega
  exact msgArr_of V c _ _ _ h0 h1

/-- An index of the array lies in point `t`'s block of window 14 iff each coordinate lies in the block's range. -/
theorem mem_blk14 (t : Fin cfg0.N) (i : S1600000x64.Idx) :
    i ∈ ((cfg0.win 14).blk t).view.set ↔ ∀ a : Fin 2, win0_14.index t a * S4000x64.size a ≤ (i a).val ∧ (i a).val < win0_14.index t a * S4000x64.size a + S4000x64.size a := by
  show i ∈ ((View.whole main_v19_0).slice (win0_14.rect t)).set ↔ _
  rw [View.set_slice_whole, Rect.mem_set_unit]
  exact Iff.rfl

/-- Every row of the array is in the block of the point that holds it: the blocks of window 14 tile the array. -/
theorem cover14 (i : S1600000x64.Idx) :
    ∃ t : Fin cfg0.N, (cfg0.win 14).flush t = true ∧ i ∈ ((cfg0.win 14).blk t).view.set := by
  have hi0 : (i 0).val < 1600000 := (i 0).isLt
  have hi1 : (i 1).val < 64 := (i 1).isLt
  have hN : cfg0.N = 400 := N_0
  refine ⟨⟨(i 0).val / 4000, by rw [hN]; omega⟩, flush0_14 _, ?_⟩
  rw [mem_blk14]
  intro a
  match a with
  | ⟨0, _⟩ =>
    show win0_14.index _ (0 : Fin 2) * 4000 ≤ (i 0).val ∧ (i 0).val < win0_14.index _ (0 : Fin 2) * 4000 + 4000
    rw [(idx_facts _).2.2.2.2.2.2.2.2.1]
    show (i 0).val / 4000 * 4000 ≤ (i 0).val ∧ (i 0).val < (i 0).val / 4000 * 4000 + 4000
    omega
  | ⟨1, _⟩ =>
    show win0_14.index _ (1 : Fin 2) * 64 ≤ (i 1).val ∧ (i 1).val < win0_14.index _ (1 : Fin 2) * 64 + 64
    rw [(idx_facts _).2.2.2.2.2.2.2.2.2.1]
    omega

/-- Where row `p`, column `q` of output window 15's block at point `t` lies in its array. -/
theorem emb15 (c : Dev nD) (t : Fin cfg0.N) (p : Fin 4000) (q : Fin 2) :
    posArr V c (((cfg0.win 15).blk t).view.emb (ix2 p q))
      = posAt V c (⟨t.val * 4000 + p.val, by have := t_lt t; omega⟩ : Fin 1600000) q := by
  have h0 : ((((cfg0.win 15).blk t).view.emb (ix2 p q)) 0).val = t.val * 4000 + p.val := by
    show win0_15.index t (0 : Fin 2) * 4000 + 1 * p.val = _; rw [(idx_facts t).2.2.2.2.2.2.2.2.2.2.1]; omega
  have h1 : ((((cfg0.win 15).blk t).view.emb (ix2 p q)) 1).val = q.val := by
    show win0_15.index t (1 : Fin 2) * 2 + 1 * q.val = _; rw [(idx_facts t).2.2.2.2.2.2.2.2.2.2.2.1]; omega
  exact posArr_of V c _ _ _ h0 h1

/-- An index of the array lies in point `t`'s block of window 15 iff each coordinate lies in the block's range. -/
theorem mem_blk15 (t : Fin cfg0.N) (i : S1600000x2.Idx) :
    i ∈ ((cfg0.win 15).blk t).view.set ↔ ∀ a : Fin 2, win0_15.index t a * S4000x2.size a ≤ (i a).val ∧ (i a).val < win0_15.index t a * S4000x2.size a + S4000x2.size a := by
  show i ∈ ((View.whole main_v19_1).slice (win0_15.rect t)).set ↔ _
  rw [View.set_slice_whole, Rect.mem_set_unit]
  exact Iff.rfl

/-- Every row of the array is in the block of the point that holds it: the blocks of window 15 tile the array. -/
theorem cover15 (i : S1600000x2.Idx) :
    ∃ t : Fin cfg0.N, (cfg0.win 15).flush t = true ∧ i ∈ ((cfg0.win 15).blk t).view.set := by
  have hi0 : (i 0).val < 1600000 := (i 0).isLt
  have hi1 : (i 1).val < 2 := (i 1).isLt
  have hN : cfg0.N = 400 := N_0
  refine ⟨⟨(i 0).val / 4000, by rw [hN]; omega⟩, flush0_15 _, ?_⟩
  rw [mem_blk15]
  intro a
  match a with
  | ⟨0, _⟩ =>
    show win0_15.index _ (0 : Fin 2) * 4000 ≤ (i 0).val ∧ (i 0).val < win0_15.index _ (0 : Fin 2) * 4000 + 4000
    rw [(idx_facts _).2.2.2.2.2.2.2.2.2.2.1]
    show (i 0).val / 4000 * 4000 ≤ (i 0).val ∧ (i 0).val < (i 0).val / 4000 * 4000 + 4000
    omega
  | ⟨1, _⟩ =>
    show win0_15.index _ (1 : Fin 2) * 2 ≤ (i 1).val ∧ (i 1).val < win0_15.index _ (1 : Fin 2) * 2 + 2
    rw [(idx_facts _).2.2.2.2.2.2.2.2.2.2.2.1]
    omega

/-- The body's message row from the blocks at point `t` is the message of edge `t * 4000 + p`. -/
theorem msg_row (c : Dev nD) (t : Fin cfg0.N) (p : Fin 4000) :
    Spec.msg2 (fun k => iblk0 V c 0 t (ix2 p k)) (fun k => iblk0 V c 1 t (ix2 p k)) (iblk0 V c 2 t (ix2 p (0 : Fin 1)))
        (fun k j => iblk0 V c 4 t (ix2 k j)) (fun k j => iblk0 V c 5 t (ix2 k j)) (fun j => iblk0 V c 6 t (ix2 (0 : Fin 1) j))
        (fun j => iblk0 V c 7 t (ix2 (0 : Fin 1) j)) (fun k j => iblk0 V c 8 t (ix2 k j)) (fun j => iblk0 V c 9 t (ix2 (0 : Fin 1) j))
      = msgAt V c (⟨t.val * 4000 + p.val, by have := t_lt t; omega⟩ : Fin 1600000) := by
  unfold msgAt
  simp only [blk0 V c t, blk1 V c t, blk2 V c t, blk4 V c t, blk5 V c t, blk6 V c t, blk7 V c t, blk8 V c t, blk9 V c t]

/-- WHAT POINT `t` WRITES BACK through window 14 is block `t` of the message array. -/
theorem flushed14 (c : Dev nD) (t : Fin cfg0.N) :
    (dat0 V c).flushed 14 t = ((cfg0.win 14).blk t).view.read (Elt Ideal) (msgArr V c) := by
  show (cfg0.win 14).cut (grid0.coords t) ((dat0 V c).after 14 t) = _
  rw [after0_14]
  funext j
  obtain ⟨p, q, rfl⟩ : ∃ (p : Fin 4000) (q : Fin 64), j = ix2 p q := ⟨j 0, j 1, eq_ix2 j⟩
  show out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (ix2 p q) = msgArr V c (((cfg0.win 14).blk t).view.emb (ix2 p q))
  rw [emb14 V c t p q]
  refine (BodyMsg.msg_block (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) p q).trans ?_
  exact congrFun (msg_row V c t p) q

/-- WHAT POINT `t` WRITES BACK through window 15 is block `t` of the position-message array. -/
theorem flushed15 (c : Dev nD) (t : Fin cfg0.N) :
    (dat0 V c).flushed 15 t = ((cfg0.win 15).blk t).view.read (Elt Ideal) (posArr V c) := by
  show (cfg0.win 15).cut (grid0.coords t) ((dat0 V c).after 15 t) = _
  rw [after0_15]
  funext j
  obtain ⟨p, d, rfl⟩ : ∃ (p : Fin 4000) (d : Fin 2), j = ix2 p d := ⟨j 0, j 1, eq_ix2 j⟩
  show out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (ix2 p d) = posArr V c (((cfg0.win 15).blk t).view.emb (ix2 p d))
  rw [emb15 V c t p d]
  refine (BodyMsg.posmsg_block (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) p d).trans ?_
  unfold posAt
  rw [msg_row V c t p]
  simp only [blk3 V c t, blk10 V c t, blk11 V c t, blk12 V c t, blk13 V c t]

/-- THE MESSAGE ARRAY after the region. -/
theorem final14 (c : Dev nD) : (dat0 V c).arrAt 14 cfg0.N = msgArr V c :=
  (dat0 V c).arrAt_eq_of_cover 14 (msgArr V c) (fun t _ => flushed14 V c t) cover14

/-- THE POSITION-MESSAGE ARRAY after the region. -/
theorem final15 (c : Dev nD) : (dat0 V c).arrAt 15 cfg0.N = posArr V c :=
  (dat0 V c).arrAt_eq_of_cover 15 (posArr V c) (fun t _ => flushed15 V c t) cover15

end Cert.Region0

end
-- ==== Proof.BodyUpd.lean ====
/-
  The update kernel's block, read at an index.

  At a grid point the kernel holds 5000 nodes: their feature block `x0`, their aggregated messages `x1`, their
  positions `x2` and aggregated position updates `x3`, and the weights. Its first output block at `(p, c)` is node
  `p`'s updated feature `c`; its second at `(p, d)` is the node's position plus its update.
-/
import proofs.«400872_j49581102465544_2_alg».proof.Proof.Gen.KernelIdeal.Frame
import proofs.«400872_j49581102465544_2_alg».proof.Proof.Spec
import proofs.«400872_j49581102465544_2_alg».proof.Proof.LibRowOps

noncomputable section

namespace Cert.BodyUpd

open Idealize.ShloMosaic Idealize.ShloMosaic.ValueIdx Cert.KernelIdeal Cert.KernelIdeal.Gen

/-- The offsets of a whole block: both are zero. -/
private theorem off_zero : (![0, 0] : Fin 2 → Nat) = fun _ => 0 := funext fun a => by fin_cases a <;> rfl

/-- The updated-feature block at `(p, c)`. -/
theorem upd_block (x0 x1 : Vec Ideal S5000x64 .f32) (x2 x3 : Vec Ideal S5000x2 .f32) (x4 x5 : Vec Ideal S64x64 .f32)
    (x6 : Vec Ideal S1x64 .f32) (x7 : Vec Ideal S64x64 .f32) (x8 : Vec Ideal S1x64 .f32) (p : Fin 5000) (c : Fin 64) :
    out1_9 (F := Ideal) x0 x1 x2 x3 x4 x5 x6 x7 x8 (ix2 p c)
      = Spec.upd (fun k => x0 (ix2 p k)) (fun k => x1 (ix2 p k)) (fun j k => x4 (ix2 j k)) (fun j k => x5 (ix2 j k))
          (fun k => x6 (ix2 (0 : Fin 1) k)) (fun k c => x7 (ix2 k c)) (fun c => x8 (ix2 (0 : Fin 1) c)) c := by
  -- The one store covers the whole block at offset zero, and every load reads a whole block: the block is the payload
  -- of the plain input blocks.
  unfold out1_9
  rw [View.canon_unit_zero off_zero]
  simp only [View.ld_unit_zero (S := S5000x64) off_zero, View.ld_unit_zero (S := S64x64) off_zero,
    View.ld_unit_zero (S := S1x64) off_zero]
  unfold k1_pay2
  simp only [shapeCast_self]
  -- Outer layer at `(p, c)`: the node's own entry, plus the product's entry (a sum over the 64 hidden columns), plus
  -- the bias row's entry `c`.
  rw [addf_apply, addf_apply, broadcastTo_1b_ab_apply,
    LibRowOps.matmul_plain_apply dot_S5000x64_S64x64_S5000x64_1_0_0_1_n_n rfl none]
  unfold Spec.upd
  refine congrArg (x0 (ix2 p c) + ·) (congrArg (· + x8 (ix2 (0 : Fin 1) c)) (Finset.sum_congr rfl fun k _ => ?_))
  -- Hidden column `k` of row `p`: the rounding to the narrower format is the identity on the extended reals, the
  -- rectifier is a pointwise maximum with zero, and the two inner products are sums over the 64 input columns.
  rw [truncf_apply, truncf_apply, maximumf_apply, addf_apply, addf_apply, broadcastTo_1b_ab_apply,
    LibRowOps.matmul_plain_apply dot_S5000x64_S64x64_S5000x64_1_0_0_1_n_n rfl none,
    LibRowOps.matmul_plain_apply dot_S5000x64_S64x64_S5000x64_1_0_0_1_n_n rfl none]
  rfl

/-- The updated-position block at `(p, d)`. -/
theorem posupd_block (x0 x1 : Vec Ideal S5000x64 .f32) (x2 x3 : Vec Ideal S5000x2 .f32) (x4 x5 : Vec Ideal S64x64 .f32)
    (x6 : Vec Ideal S1x64 .f32) (x7 : Vec Ideal S64x64 .f32) (x8 : Vec Ideal S1x64 .f32) (p : Fin 5000) (d : Fin 2) :
    out1_10 (F := Ideal) x0 x1 x2 x3 x4 x5 x6 x7 x8 (ix2 p d) = x2 (ix2 p d) + x3 (ix2 p d) := by
  -- One whole-block store of the pointwise sum of two whole-block loads; the cast of a shape to itself is the identity.
  unfold out1_10
  rw [View.canon_unit_zero off_zero]
  simp only [View.ld_unit_zero (S := S5000x2) off_zero]
  unfold k1_pay1
  simp only [shapeCast_self]
  rfl

end Cert.BodyUpd

end
-- ==== Proof.Region1.lean ====
/-
  The update kernel's two output arrays after its run, as functions of the arrays the region is entered with.

  The region walks the 100,000 nodes in 20 blocks of 5000 rows; block `t` of a node array is its rows
  `5000 t … 5000 t + 4999`, and the weights are fetched whole at every point. What a point writes back is, row by row,
  the updated features and the updated position of the node that row belongs to; every node lies in the block of the
  point `n / 5000`, so the blocks tile the arrays and the arrays end holding one function of the whole arrays.
-/
import proofs.«400872_j49581102465544_2_alg».proof.Proof.Gen.KernelIdeal.Frame
import proofs.«400872_j49581102465544_2_alg».proof.Proof.BodyUpd
import Idealize.ShloMosaic.Lib.Pipeline.Value
import Idealize.ShloMosaic.Lib.ValueIdx

set_option maxRecDepth 16384

noncomputable section

namespace Cert.Region1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The all-zero offset of a whole-block rectangle. -/
theorem hz : (![0, 0] : Fin 2 → Nat) = fun _ => 0 := funext fun a => by fin_cases a <;> rfl

/-- A grid point's number is below the number of points. -/
theorem t_lt (t : Fin cfg1.N) : t.val < 20 := lt_of_lt_of_eq t.isLt N_1

/-- The printed block index maps, decided over the grid: a row window's block at point `t` is block `t` along the
    rows and block `0` along the columns; a weight window's block is the whole array at every point. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_9.index t (0 : Fin 2) = t.val
    ∧ win1_9.index t (1 : Fin 2) = 0
    ∧ win1_10.index t (0 : Fin 2) = t.val
    ∧ win1_10.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0 :=
  (by decide +kernel : ∀ t : Fin grid1.N, _)

/-- Row `p` of window 0's block at point `t` is row `t * 5000 + p` of its array. -/
theorem blk0 (c : Dev nD) (t : Fin cfg1.N) (p : Fin 5000) (k : Fin 64) :
    iblk1 V c 0 t (ix2 p k) = V c main_arg0 (ix2 (⟨t.val * 5000 + p.val, by have := t_lt t; omega⟩ : Fin 100000) k) := by
  show V c main_arg0 (((cfg1.win 0).blk t).view.emb (ix2 p k)) = _
  refine congrArg (V c main_arg0) (funext fun a => Fin.ext ?_)
  match a with
  | ⟨0, _⟩ => show win1_0.index t (0 : Fin 2) * 5000 + 1 * p.val = t.val * 5000 + p.val; rw [(idx_facts t).1]; omega
  | ⟨1, _⟩ => show win1_0.index t (1 : Fin 2) * 64 + 1 * k.val = k.val; rw [(idx_facts t).2.1]; omega

/-- Row `p` of window 1's block at point `t` is row `t * 5000 + p` of its array. -/
theorem blk1 (c : Dev nD) (t : Fin cfg1.N) (p : Fin 5000) (k : Fin 64) :
    iblk1 V c 1 t (ix2 p k) = V c main_v22 (ix2 (⟨t.val * 5000 + p.val, by have := t_lt t; omega⟩ : Fin 100000) k) := by
  show V c main_v22 (((cfg1.win 1).blk t).view.emb (ix2 p k)) = _
  refine congrArg (V c main_v22) (funext fun a => Fin.ext ?_)
  match a with
  | ⟨0, _⟩ => show win1_1.index t (0 : Fin 2) * 5000 + 1 * p.val = t.val * 5000 + p.val; rw [(idx_facts t).2.2.1]; omega
  | ⟨1, _⟩ => show win1_1.index t (1 : Fin 2) * 64 + 1 * k.val = k.val; rw [(idx_facts t).2.2.2.1]; omega

/-- Row `p` of window 2's block at point `t` is row `t * 5000 + p` of its array. -/
theorem blk2 (c : Dev nD) (t : Fin cfg1.N) (p : Fin 5000) (k : Fin 2) :
    iblk1 V c 2 t (ix2 p k) = V c main_arg1 (ix2 (⟨t.val * 5000 + p.val, by have := t_lt t; omega⟩ : Fin 100000) k) := by
  show V c main_arg1 (((cfg1.win 2).blk t).view.emb (ix2 p k)) = _
  refine congrArg (V c main_arg1) (funext fun a => Fin.ext ?_)
  match a with
  | ⟨0, _⟩ => show win1_2.index t (0 : Fin 2) * 5000 + 1 * p.val = t.val * 5000 + p.val; rw [(idx_facts t).2.2.2.2.1]; omega
  | ⟨1, _⟩ => show win1_2.index t (1 : Fin 2) * 2 + 1 * k.val = k.val; rw [(idx_facts t).2.2.2.2.2.1]; omega

/-- Row `p` of window 3's block at point `t` is row `t * 5000 + p` of its array. -/
theorem blk3 (c : Dev nD) (t : Fin cfg1.N) (p : Fin 5000) (k : Fin 2) :
    iblk1 V c 3 t (ix2 p k) = V c main_v33 (ix2 (⟨t.val * 5000 + p.val, by have := t_lt t; omega⟩ : Fin 100000) k) := by
  show V c main_v33 (((cfg1.win 3).blk t).view.emb (ix2 p k)) = _
  refine congrArg (V c main_v33) (funext fun a => Fin.ext ?_)
  match a with
  | ⟨0, _⟩ => show win1_3.index t (0 : Fin 2) * 5000 + 1 * p.val = t.val * 5000 + p.val; rw [(idx_facts t).2.2.2.2.2.2.1]; omega
  | ⟨1, _⟩ => show win1_3.index t (1 : Fin 2) * 2 + 1 * k.val = k.val; rw [(idx_facts t).2.2.2.2.2.2.2.1]; omega

/-- Window 4's block at any point is its whole array. -/
theorem blk4 (c : Dev nD) (t : Fin cfg1.N) (p : Fin 64) (k : Fin 64) :
    iblk1 V c 4 t (ix2 p k) = V c main_v34 (ix2 p k) := by
  show V c main_v34 (((cfg1.win 4).blk t).view.emb (ix2 p k)) = _
  refine congrArg (V c main_v34) (funext fun a => Fin.ext ?_)
  match a with
  | ⟨0, _⟩ => show win1_4.index t (0 : Fin 2) * 64 + 1 * p.val = p.val; rw [(idx_facts t).2.2.2.2.2.2.2.2.2.2.2.2.1]; omega
  | ⟨1, _⟩ => show win1_4.index t (1 : Fin 2) * 64 + 1 * k.val = k.val; rw [(idx_facts t).2.2.2.2.2.2.2.2.2.2.2.2.2.1]; omega

/-- Window 5's block at any point is its whole array. -/
theorem blk5 (c : Dev nD) (t : Fin cfg1.N) (p : Fin 64) (k : Fin 64) :
    iblk1 V c 5 t (ix2 p k) = V c main_v35 (ix2 p k) := by
  show V c main_v35 (((cfg1.win 5).blk t).view.emb (ix2 p k)) = _
  refine congrArg (V c main_v35) (funext fun a => Fin.ext ?_)
  match a with
  | ⟨0, _⟩ => show win1_5.index t (0 : Fin 2) * 64 + 1 * p.val = p.val; rw [(idx_facts t).2.2.2.2.2.2.2.2.2.2.2.2.2.2.1]; omega
  | ⟨1, _⟩ => show win1_5.index t (1 : Fin 2) * 64 + 1 * k.val = k.val; rw [(idx_facts t).2.2.2.2.2.2.2.2.2.2.2.2.2.2.2.1]; omega

/-- Window 6's block at any point is its whole array. -/
theorem blk6 (c : Dev nD) (t : Fin cfg1.N) (p : Fin 1) (k : Fin 64) :
    iblk1 V c 6 t (ix2 p k) = V c main_v36 (ix2 p k) := by
  show V c main_v36 (((cfg1.win 6).blk t).view.emb (ix2 p k)) = _
  refine congrArg (V c main_v36) (funext fun a => Fin.ext ?_)
  match a with
  | ⟨0, _⟩ => show win1_6.index t (0 : Fin 2) * 1 + 1 * p.val = p.val; rw [(idx_facts t).2.2.2.2.2.2.2.2.2.2.2.2.2.2.2.2.1]; omega
  | ⟨1, _⟩ => show win1_6.index t (1 : Fin 2) * 64 + 1 * k.val = k.val; rw [(idx_facts t).2.2.2.2.2.2.2.2.2.2.2.2.2.2.2.2.2.1]; omega

/-- Window 7's block at any point is its whole array. -/
theorem blk7 (c : Dev nD) (t : Fin cfg1.N) (p : Fin 64) (k : Fin 64) :
    iblk1 V c 7 t (ix2 p k) = V c main_arg14 (ix2 p k) := by
  show V c main_arg14 (((cfg1.win 7).blk t).view.emb (ix2 p k)) = _
  refine congrArg (V c main_arg14) (funext fun a => Fin.ext ?_)
  match a with
  | ⟨0, _⟩ => show win1_7.index t (0 : Fin 2) * 64 + 1 * p.val = p.val; rw [(idx_facts t).2.2.2.2.2.2.2.2.2.2.2.2.2.2.2.2.2.2.1]; omega
  | ⟨1, _⟩ => show win1_7.index t (1 : Fin 2) * 64 + 1 * k.val = k.val; rw [(idx_facts t).2.2.2.2.2.2.2.2.2.2.2.2.2.2.2.2.2.2.2.1]; omega

/-- Window 8's block at any point is its whole array. -/
theorem blk8 (c : Dev nD) (t : Fin cfg1.N) (p : Fin 1) (k : Fin 64) :
    iblk1 V c 8 t (ix2 p k) = V c main_v37 (ix2 p k) := by
  show V c main_v37 (((cfg1.win 8).blk t).view.emb (ix2 p k)) = _
  refine congrArg (V c main_v37) (funext fun a => Fin.ext ?_)
  match a with
  | ⟨0, _⟩ => show win1_8.index t (0 : Fin 2) * 1 + 1 * p.val = p.val; rw [(idx_facts t).2.2.2.2.2.2.2.2.2.2.2.2.2.2.2.2.2.2.2.2.1]; omega
  | ⟨1, _⟩ => show win1_8.index t (1 : Fin 2) * 64 + 1 * k.val = k.val; rw [(idx_facts t).2.2.2.2.2.2.2.2.2.2.2.2.2.2.2.2.2.2.2.2.2]; omega

/-- Node `n`'s updated feature `q`, from the arrays the region is entered with. -/
def updAt (c : Dev nD) (n : Fin 100000) (q : Fin 64) : EReal :=
  Spec.upd (fun k => V c main_arg0 (ix2 n k)) (fun k => V c main_v22 (ix2 n k)) (fun j k => V c main_v34 (ix2 j k))
    (fun j k => V c main_v35 (ix2 j k)) (fun k => V c main_v36 (ix2 (0 : Fin 1) k)) (fun k j => V c main_arg14 (ix2 k j))
    (fun j => V c main_v37 (ix2 (0 : Fin 1) j)) q

/-- Node `n`'s position at coordinate `d`. -/
abbrev posOld (c : Dev nD) (n : Fin 100000) (d : Fin 2) : EReal := V c main_arg1 (ix2 n d)
/-- Node `n`'s aggregated position update at coordinate `d`. -/
abbrev posAgg (c : Dev nD) (n : Fin 100000) (d : Fin 2) : EReal := V c main_v33 (ix2 n d)

/-- Node `n`'s updated position at coordinate `d`. -/
def pupAt (c : Dev nD) (n : Fin 100000) (d : Fin 2) : EReal := posOld V c n d + posAgg V c n d

/-- The updated feature array. -/
def updArr (c : Dev nD) : S100000x64.Idx → EReal := fun i => updAt V c ⟨(i 0).val, idx2_lt0 i⟩ ⟨(i 1).val, idx2_lt1 i⟩

/-- The array at an index whose coordinates are `e` and `q`. -/
theorem updArr_of (c : Dev nD) (i : S100000x64.Idx) (e : Fin 100000) (q : Fin 64) (h0 : (i 0).val = e.val) (h1 : (i 1).val = q.val) :
    updArr V c i = updAt V c e q := by
  unfold updArr
  congr 1
  · exact Fin.ext h0
  · exact Fin.ext h1

/-- The updated position array. -/
def pupArr (c : Dev nD) : S100000x2.Idx → EReal := fun i => pupAt V c ⟨(i 0).val, idx2_lt0 i⟩ ⟨(i 1).val, idx2_lt1 i⟩

/-- The array at an index whose coordinates are `e` and `q`. -/
theorem pupArr_of (c : Dev nD) (i : S100000x2.Idx) (e : Fin 100000) (q : Fin 2) (h0 : (i 0).val = e.val) (h1 : (i 1).val = q.val) :
    pupArr V c i = pupAt V c e q := by
  unfold pupArr
  congr 1
  · exact Fin.ext h0
  · exact Fin.ext h1

/-- Where row `p`, column `q` of output window 9's block at point `t` lies in its array. -/
theorem emb9 (c : Dev nD) (t : Fin cfg1.N) (p : Fin 5000) (q : Fin 64) :
    updArr V c (((cfg1.win 9).blk t).view.emb (ix2 p q))
      = updAt V c (⟨t.val * 5000 + p.val, by have := t_lt t; omega⟩ : Fin 100000) q := by
  have h0 : ((((cfg1.win 9).blk t).view.emb (ix2 p q)) 0).val = t.val * 5000 + p.val := by
    show win1_9.index t (0 : Fin 2) * 5000 + 1 * p.val = _; rw [(idx_facts t).2.2.2.2.2.2.2.2.1]; omega
  have h1 : ((((cfg1.win 9).blk t).view.emb (ix2 p q)) 1).val = q.val := by
    show win1_9.index t (1 : Fin 2) * 64 + 1 * q.val = _; rw [(idx_facts t).2.2.2.2.2.2.2.2.2.1]; omega
  exact updArr_of V c _ _ _ h0 h1

/-- An index of the array lies in point `t`'s block of window 9 iff each coordinate lies in the block's range. -/
theorem mem_blk9 (t : Fin cfg1.N) (i : S100000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v38_0).slice (win1_9.rect t)).set ↔ _
  rw [View.set_slice_whole, Rect.mem_set_unit]
  exact Iff.rfl

/-- Every row of the array is in the block of the point that holds it: the blocks of window 9 tile the array. -/
theorem cover9 (i : S100000x64.Idx) :
    ∃ t : Fin cfg1.N, (cfg1.win 9).flush t = true ∧ i ∈ ((cfg1.win 9).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_9 _, ?_⟩
  rw [mem_blk9]
  intro a
  match a with
  | ⟨0, _⟩ =>
    show win1_9.index _ (0 : Fin 2) * 5000 ≤ (i 0).val ∧ (i 0).val < win1_9.index _ (0 : Fin 2) * 5000 + 5000
    rw [(idx_facts _).2.2.2.2.2.2.2.2.1]
    show (i 0).val / 5000 * 5000 ≤ (i 0).val ∧ (i 0).val < (i 0).val / 5000 * 5000 + 5000
    omega
  | ⟨1, _⟩ =>
    show win1_9.index _ (1 : Fin 2) * 64 ≤ (i 1).val ∧ (i 1).val < win1_9.index _ (1 : Fin 2) * 64 + 64
    rw [(idx_facts _).2.2.2.2.2.2.2.2.2.1]
    omega

/-- Where row `p`, column `q` of output window 10's block at point `t` lies in its array. -/
theorem emb10 (c : Dev nD) (t : Fin cfg1.N) (p : Fin 5000) (q : Fin 2) :
    pupArr V c (((cfg1.win 10).blk t).view.emb (ix2 p q))
      = pupAt V c (⟨t.val * 5000 + p.val, by have := t_lt t; omega⟩ : Fin 100000) q := by
  have h0 : ((((cfg1.win 10).blk t).view.emb (ix2 p q)) 0).val = t.val * 5000 + p.val := by
    show win1_10.index t (0 : Fin 2) * 5000 + 1 * p.val = _; rw [(idx_facts t).2.2.2.2.2.2.2.2.2.2.1]; omega
  have h1 : ((((cfg1.win 10).blk t).view.emb (ix2 p q)) 1).val = q.val := by
    show win1_10.index t (1 : Fin 2) * 2 + 1 * q.val = _; rw [(idx_facts t).2.2.2.2.2.2.2.2.2.2.2.1]; omega
  exact pupArr_of V c _ _ _ h0 h1

/-- An index of the array lies in point `t`'s block of window 10 iff each coordinate lies in the block's range. -/
theorem mem_blk10 (t : Fin cfg1.N) (i : S100000x2.Idx) :
    i ∈ ((cfg1.win 10).blk t).view.set ↔ ∀ a : Fin 2, win1_10.index t a * S5000x2.size a ≤ (i a).val ∧ (i a).val < win1_10.index t a * S5000x2.size a + S5000x2.size a := by
  show i ∈ ((View.whole main_v38_1).slice (win1_10.rect t)).set ↔ _
  rw [View.set_slice_whole, Rect.mem_set_unit]
  exact Iff.rfl

/-- Every row of the array is in the block of the point that holds it: the blocks of window 10 tile the array. -/
theorem cover10 (i : S100000x2.Idx) :
    ∃ t : Fin cfg1.N, (cfg1.win 10).flush t = true ∧ i ∈ ((cfg1.win 10).blk t).view.set := by
  have hi0 : (i 0).val < 100000 := (i 0).isLt
  have hi1 : (i 1).val < 2 := (i 1).isLt
  have hN : cfg1.N = 20 := N_1
  refine ⟨⟨(i 0).val / 5000, by rw [hN]; omega⟩, flush1_10 _, ?_⟩
  rw [mem_blk10]
  intro a
  match a with
  | ⟨0, _⟩ =>
    show win1_10.index _ (0 : Fin 2) * 5000 ≤ (i 0).val ∧ (i 0).val < win1_10.index _ (0 : Fin 2) * 5000 + 5000
    rw [(idx_facts _).2.2.2.2.2.2.2.2.2.2.1]
    show (i 0).val / 5000 * 5000 ≤ (i 0).val ∧ (i 0).val < (i 0).val / 5000 * 5000 + 5000
    omega
  | ⟨1, _⟩ =>
    show win1_10.index _ (1 : Fin 2) * 2 ≤ (i 1).val ∧ (i 1).val < win1_10.index _ (1 : Fin 2) * 2 + 2
    rw [(idx_facts _).2.2.2.2.2.2.2.2.2.2.2.1]
    omega

/-- WHAT POINT `t` WRITES BACK through window 9 is block `t` of the updated feature array. -/
theorem flushed9 (c : Dev nD) (t : Fin cfg1.N) :
    (dat1 V c).flushed 9 t = ((cfg1.win 9).blk t).view.read (Elt Ideal) (updArr V c) := by
  show (cfg1.win 9).cut (grid1.coords t) ((dat1 V c).after 9 t) = _
  rw [after1_9]
  funext j
  obtain ⟨p, q, rfl⟩ : ∃ (p : Fin 5000) (q : Fin 64), j = ix2 p q := ⟨j 0, j 1, eq_ix2 j⟩
  show out1_9 (iblk1 V c 0 t) (iblk1 V c 1 t) (iblk1 V c 2 t) (iblk1 V c 3 t) (iblk1 V c 4 t) (iblk1 V c 5 t) (iblk1 V c 6 t) (iblk1 V c 7 t) (iblk1 V c 8 t) (ix2 p q) = updArr V c (((cfg1.win 9).blk t).view.emb (ix2 p q))
  rw [emb9 V c t p q]
  refine (BodyUpd.upd_block (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
  unfold updAt
  simp only [blk0 V c t, blk1 V c t, blk4 V c t, blk5 V c t, blk6 V c t, blk7 V c t, blk8 V c t]

/-- WHAT POINT `t` WRITES BACK through window 10 is block `t` of the updated position array. -/
theorem flushed10 (c : Dev nD) (t : Fin cfg1.N) :
    (dat1 V c).flushed 10 t = ((cfg1.win 10).blk t).view.read (Elt Ideal) (pupArr V c) := by
  show (cfg1.win 10).cut (grid1.coords t) ((dat1 V c).after 10 t) = _
  rw [after1_10]
  funext j
  obtain ⟨p, d, rfl⟩ : ∃ (p : Fin 5000) (d : Fin 2), j = ix2 p d := ⟨j 0, j 1, eq_ix2 j⟩
  show out1_10 (iblk1 V c 0 t) (iblk1 V c 1 t) (iblk1 V c 2 t) (iblk1 V c 3 t) (iblk1 V c 4 t) (iblk1 V c 5 t) (iblk1 V c 6 t) (iblk1 V c 7 t) (iblk1 V c 8 t) (ix2 p d) = pupArr V c (((cfg1.win 10).blk t).view.emb (ix2 p d))
  rw [emb10 V c t p d]
  refine (BodyUpd.posupd_block (iblk1 V c 0 t) (iblk1 V c 1 t) (iblk1 V c 2 t) (iblk1 V c 3 t) (iblk1 V c 4 t) (iblk1 V c 5 t) (iblk1 V c 6 t) (iblk1 V c 7 t) (iblk1 V c 8 t) p d).trans ?_
  unfold pupAt
  simp only [blk2 V c t, blk3 V c t]

/-- THE UPDATED FEATURE ARRAY after the region. -/
theorem final9 (c : Dev nD) : (dat1 V c).arrAt 9 cfg1.N = updArr V c :=
  (dat1 V c).arrAt_eq_of_cover 9 (updArr V c) (fun t _ => flushed9 V c t) cover9

/-- THE UPDATED POSITION ARRAY after the region. -/
theorem final10 (c : Dev nD) : (dat1 V c).arrAt 10 cfg1.N = pupArr V c :=
  (dat1 V c).arrAt_eq_of_cover 10 (pupArr V c) (fun t _ => flushed10 V c t) cover10

end Cert.Region1

end
-- ==== Proof.TakeFill.lean ====
/-
  A gather that fills out-of-range rows, at indices that are all in range.

  The kernel's program gathers rows with a bounds test: it wraps a negative index by the number of rows, tests the
  wrapped index against `[0, 99999]`, gathers, and replaces the rows that failed the test by a fill value. When every
  index is a node number the wrap changes nothing, every test passes, and the result is the plain gather.
-/
import proofs.«400872_j49581102465544_2_alg».proof.KernelIdeal
import Idealize.ShloMosaic.Lib.StableHlo.Predicate
import Idealize.ShloMosaic.Lib.ValueIdx
import Idealize.ShloMosaic.Lib.Affine

noncomputable section

namespace Cert.TakeFill

open Idealize.ShloMosaic Idealize.ShloMosaic.ValueIdx Idealize.ShloMosaic.StableHlo.Predicate
open Cert.KernelIdeal Cert.KernelIdeal.Facts₀ Cert.KernelIdeal.Facts

/-- A word that is a node number when read signed: at least `0` and below `100000`. -/
def InRange (w : BitVec 32) : Prop := IntOp.cmpi .sge w 0#32 = 1#1 ∧ IntOp.cmpi .slt w 100000#32 = 1#1

/-- Such a word is below `100000` read unsigned too. -/
theorem toNat_lt {w : BitVec 32} (h : InRange w) : w.toNat < 100000 := by
  obtain ⟨h0, h8⟩ := h
  unfold IntOp.cmpi at h0 h8
  rw [ofBool_eq_one_iff] at h0 h8
  simp only [BitVec.slt, BitVec.sle, decide_eq_true_eq] at h0 h8
  have h32 := w.isLt
  unfold BitVec.toInt at h0 h8
  split at h8 <;> simp at h0 h8 <;> omega

/-- It is not negative. -/
theorem not_neg {w : BitVec 32} (h : InRange w) : IntOp.cmpi .slt w 0#32 = 0#1 := by
  refine eq_zero_of_ne_one fun e => ?_
  have hw := toNat_lt h
  have := (slt_iff_toNat (a := w) (b := 0#32) (by omega) (by decide)).1 e
  simp at this

/-- It is at most the last row's number. -/
theorem le_last {w : BitVec 32} (h : InRange w) : IntOp.cmpi .sle w 99999#32 = 1#1 := by
  have hw := toNat_lt h
  refine (sle_iff_toNat (a := w) (b := 99999#32) (by omega) (by decide)).2 ?_
  show w.toNat ≤ 99999
  omega

/-- A fold of "and" from one over ones is one. -/
theorem foldl_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_ones f hf l

variable [Cert.KernelIdeal.Facts]

/-- The index as the gather takes it: a negative one wrapped by the number of rows. -/
def wrap (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 100000#32))) idx

/-- A node number is not wrapped. -/
theorem wrap_apply (idx : IVec S1600000 32) (e : S1600000.Idx) (h : InRange (idx e)) : wrap idx e = idx e := by
  show Scalar.select (IntOp.cmpi .slt (idx e) 0#32) _ _ = _
  rw [not_neg h]
  exact select_zero _ _

/-- The wrapped indices as a column. -/
def col (idx : IVec S1600000 32) : IVec S1600000x1 32 :=
  broadcastInDim S1600000x1 ![0] bcast_S1600000_S1600000x1_0 (wrap idx)

/-- The bounds test, one bit per gathered row. -/
def mask (idx : IVec S1600000 32) : IVec S1600000 1 :=
  Host.reduce IntOp.andi
    (andi (cmpi .sge (col idx) (broadcastInDim S1600000x1 ![] bcast_S_S1600000x1 (constantI S_ 32 0#32)))
      (cmpi .sle (col idx) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Node numbers pass the bounds test. -/
theorem mask_apply (idx : IVec S1600000 32) (h : ∀ e, InRange (idx e)) (e : S1600000.Idx) : mask idx e = 1#1 := by
  unfold mask
  rw [Host.reduce_eq_foldl]
  refine foldl_ones _ (fun n => ?_) _
  have key : ∀ w : BitVec 32, InRange w → IntOp.andi (IntOp.cmpi .sge w 0#32) (IntOp.cmpi .sle w 99999#32) = 1#1 :=
    fun w hw => IntOp.andi_eq_one.2 ⟨hw.1, le_last hw⟩
  refine key _ ?_
  show InRange (wrap idx _)
  rw [wrap_apply idx _ (h _)]
  exact h _

/-- The filled gather of 64-wide rows is the plain gather. -/
theorem fill64 (x : FVec Ideal S100000x64 .f32) (idx : IVec S1600000 32) (h : ∀ e, InRange (idx e)) :
    select (broadcastInDim S1600000x64 ![0] bcast_S1600000_S1600000x64_0 (mask idx))
        (Host.gather gather_S100000x64_S1600000x1_S1600000x64_1_0_n_n_0_1_164 x (col idx))
        (broadcastInDim S1600000x64 ![] bcast_S_S1600000x64 (constant (F := Ideal) S_ .f32 0x7FC00000#32))
      = Host.gather gather_S100000x64_S1600000x1_S1600000x64_1_0_n_n_0_1_164 x (col idx) := by
  funext j
  show Scalar.select (mask idx _) _ _ = _
  rw [mask_apply idx h]
  exact select_one _ _

/-- The filled gather of 2-wide rows is the plain gather. -/
theorem fill2 (x : FVec Ideal S100000x2 .f32) (idx : IVec S1600000 32) (h : ∀ e, InRange (idx e)) :
    select (broadcastInDim S1600000x2 ![0] bcast_S1600000_S1600000x2_0 (mask idx))
        (Host.gather gather_S100000x2_S1600000x1_S1600000x2_1_0_n_n_0_1_12 x (col idx))
        (broadcastInDim S1600000x2 ![] bcast_S_S1600000x2 (constant (F := Ideal) S_ .f32 0x7FC00000#32))
      = Host.gather gather_S100000x2_S1600000x1_S1600000x2_1_0_n_n_0_1_12 x (col idx) := by
  funext j
  show Scalar.select (mask idx _) _ _ = _
  rw [mask_apply idx h]
  exact select_one _ _

end Cert.TakeFill

end
-- ==== Proof.HostA.lean ====
/-
  What the message kernel's region is entered with.

  Before the first region the program slices the edge list into its source and target rows, gathers the end nodes'
  feature rows and positions (each gather with its bounds test and fill), forms the relative positions and their
  squared lengths, slices the first weight matrix into its three blocks and lays the bias vectors out as rows.
  Each of the region's input arrays is therefore one fixed term of the launch arrays; the edge list's two rows are
  kept as the names `dst` and `src`.
-/
import proofs.«400872_j49581102465544_2_alg».proof.Proof.Gen.KernelIdeal.Frame
import proofs.«400872_j49581102465544_2_alg».proof.Proof.TakeFill
import Idealize.ShloMosaic.Lib.StableHlo.Run

set_option maxRecDepth 16384

noncomputable section

namespace Cert.HostA

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The bounds-tested, filled gather of 64-wide rows, as the program spells it. -/
def takeRows64 (x : FVec Ideal S100000x64 .f32) (idx : IVec S1600000 32) : FVec Ideal S1600000x64 .f32 :=
  select (broadcastInDim S1600000x64 ![0] bcast_S1600000_S1600000x64_0 (TakeFill.mask idx))
    (Host.gather gather_S100000x64_S1600000x1_S1600000x64_1_0_n_n_0_1_164 x (TakeFill.col idx))
    (broadcastInDim S1600000x64 ![] bcast_S_S1600000x64 (constant (F := Ideal) S_ .f32 0x7FC00000#32))

/-- The bounds-tested, filled gather of 2-wide rows. -/
def takeRows2 (x : FVec Ideal S100000x2 .f32) (idx : IVec S1600000 32) : FVec Ideal S1600000x2 .f32 :=
  select (broadcastInDim S1600000x2 ![0] bcast_S1600000_S1600000x2_0 (TakeFill.mask idx))
    (Host.gather gather_S100000x2_S1600000x1_S1600000x2_1_0_n_n_0_1_12 x (TakeFill.col idx))
    (broadcastInDim S1600000x2 ![] bcast_S_S1600000x2 (constant (F := Ideal) S_ .f32 0x7FC00000#32))

/-- The edges' relative positions: target node's position minus source node's. -/
def relPos (x : FVec Ideal S100000x2 .f32) (dst src : IVec S1600000 32) : FVec Ideal S1600000x2 .f32 :=
  subf (takeRows2 x dst) (takeRows2 x src)

/-- The squared lengths of the relative positions, as a column. -/
def dist2 (rel : FVec Ideal S1600000x2 .f32) : FVec Ideal S1600000x1 .f32 :=
  broadcastInDim S1600000x1 ![0] bcast_S1600000_S1600000x1_0
    (Host.reduceAdd (mulf rel rel) (constant (F := Ideal) S_ .f32 0x00000000#32) reducesTo_S1600000x2_S1600000_d1 h_S_)

/-- The edges' target nodes: row 1 of the edge list, as the first stretch of host operations leaves it. -/
abbrev dst (c : Dev nD) : IVec S1600000 32 := W1 m ρ c (Proc.devRef .tc main_v3)
/-- The edges' source nodes: row 0 of the edge list. -/
abbrev src (c : Dev nD) : IVec S1600000 32 := W1 m ρ c (Proc.devRef .tc main_v1)

/-! ## What each stretch of host operations writes, and so what it keeps -/

/-- The references the first stretch of host operations writes. -/
abbrev w0 : List (Ref sig .tc) :=
  [main_v0, main_v1, main_v2, main_v3]
theorem hw0 : (hostOps0 (F := Ideal)).Forall fun op => op.writes ⊆ ((w0.map (Proc.devRef (τ := τ) .tc)).toFinset) := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The references the second stretch of host operations writes. -/
abbrev w1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
theorem hw1 : (hostOps0_1 (F := Ideal)).Forall fun op => op.writes ⊆ ((w1.map (Proc.devRef (τ := τ) .tc)).toFinset) := by
  simp only [hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The references the third stretch of host operations writes. -/
abbrev w2 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
theorem hw2 : (hostOps0_2 (F := Ideal)).Forall fun op => op.writes ⊆ ((w2.map (Proc.devRef (τ := τ) .tc)).toFinset) := by
  simp only [hostOps0_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The references the fourth stretch of host operations writes. -/
abbrev w3 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v6]
theorem hw3 : (hostOps0_3 (F := Ideal)).Forall fun op => op.writes ⊆ ((w3.map (Proc.devRef (τ := τ) .tc)).toFinset) := by
  simp only [hostOps0_3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The references the fifth stretch of host operations writes. -/
abbrev w4 : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v7]
theorem hw4 : (hostOps0_4 (F := Ideal)).Forall fun op => op.writes ⊆ ((w4.map (Proc.devRef (τ := τ) .tc)).toFinset) := by
  simp only [hostOps0_4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The references the sixth stretch of host operations writes. -/
abbrev w5 : List (Ref sig .tc) :=
  [main_v8, main_v9, main_cst, main_v10, main_v11, main_v12, main_v13, main_v14, main_v15, main_v16, main_v17, main_v18]
theorem hw5 : (hostOps0_5 (F := Ideal)).Forall fun op => op.writes ⊆ ((w5.map (Proc.devRef (τ := τ) .tc)).toFinset) := by
  simp only [hostOps0_5, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer a stretch does not write holds after it what it held before. -/
theorem keep0 (c : Dev nD) (r : Ref sig .tc) (h : r ∉ w0 := by decide) :
    W1 m ρ c (Proc.devRef .tc r) = W0 m ρ c (Proc.devRef .tc r) :=
  StableHlo.after_of_writes_sub hostOps0 _ hw0 h
theorem keep1 (c : Dev nD) (r : Ref sig .tc) (h : r ∉ w1 := by decide) :
    W2 m ρ c (Proc.devRef .tc r) = W1 m ρ c (Proc.devRef .tc r) :=
  StableHlo.after_of_writes_sub hostOps0_1 _ hw1 h
theorem keep2 (c : Dev nD) (r : Ref sig .tc) (h : r ∉ w2 := by decide) :
    W3 m ρ c (Proc.devRef .tc r) = W2 m ρ c (Proc.devRef .tc r) :=
  StableHlo.after_of_writes_sub hostOps0_2 _ hw2 h
theorem keep3 (c : Dev nD) (r : Ref sig .tc) (h : r ∉ w3 := by decide) :
    W4 m ρ c (Proc.devRef .tc r) = W3 m ρ c (Proc.devRef .tc r) :=
  StableHlo.after_of_writes_sub hostOps0_3 _ hw3 h
theorem keep4 (c : Dev nD) (r : Ref sig .tc) (h : r ∉ w4 := by decide) :
    W5 m ρ c (Proc.devRef .tc r) = W4 m ρ c (Proc.devRef .tc r) :=
  StableHlo.after_of_writes_sub hostOps0_4 _ hw4 h
theorem keep5 (c : Dev nD) (r : Ref sig .tc) (h : r ∉ w5 := by decide) :
    W6 m ρ c (Proc.devRef .tc r) = W5 m ρ c (Proc.devRef .tc r) :=
  StableHlo.after_of_writes_sub hostOps0_5 _ hw5 h

/-- A buffer none of the first stretches writes still holds the launch memory. -/
theorem launch1 (c : Dev nD) (r : Ref sig .tc) (h0 : r ∉ w0 := by decide) :
    W1 m ρ c (Proc.devRef .tc r) = m ((c : Thread nD τ).loc r) :=
  keep0 m ρ c r h0
theorem launch2 (c : Dev nD) (r : Ref sig .tc) (h1 : r ∉ w1 := by decide) (h0 : r ∉ w0 := by decide) :
    W2 m ρ c (Proc.devRef .tc r) = m ((c : Thread nD τ).loc r) :=
  (keep1 m ρ c r h1).trans (launch1 m ρ c r h0)
theorem launch3 (c : Dev nD) (r : Ref sig .tc) (h2 : r ∉ w2 := by decide) (h1 : r ∉ w1 := by decide) (h0 : r ∉ w0 := by decide) :
    W3 m ρ c (Proc.devRef .tc r) = m ((c : Thread nD τ).loc r) :=
  (keep2 m ρ c r h2).trans (launch2 m ρ c r h1 h0)
theorem launch4 (c : Dev nD) (r : Ref sig .tc) (h3 : r ∉ w3 := by decide) (h2 : r ∉ w2 := by decide) (h1 : r ∉ w1 := by decide) (h0 : r ∉ w0 := by decide) :
    W4 m ρ c (Proc.devRef .tc r) = m ((c : Thread nD τ).loc r) :=
  (keep3 m ρ c r h3).trans (launch3 m ρ c r h2 h1 h0)
theorem launch5 (c : Dev nD) (r : Ref sig .tc) (h4 : r ∉ w4 := by decide) (h3 : r ∉ w3 := by decide) (h2 : r ∉ w2 := by decide) (h1 : r ∉ w1 := by decide) (h0 : r ∉ w0 := by decide) :
    W5 m ρ c (Proc.devRef .tc r) = m ((c : Thread nD τ).loc r) :=
  (keep4 m ρ c r h4).trans (launch4 m ρ c r h3 h2 h1 h0)
theorem launch6 (c : Dev nD) (r : Ref sig .tc) (h5 : r ∉ w5 := by decide) (h4 : r ∉ w4 := by decide) (h3 : r ∉ w3 := by decide) (h2 : r ∉ w2 := by decide) (h1 : r ∉ w1 := by decide) (h0 : r ∉ w0 := by decide) :
    W6 m ρ c (Proc.devRef .tc r) = m ((c : Thread nD τ).loc r) :=
  (keep5 m ρ c r h5).trans (launch5 m ρ c r h4 h3 h2 h1 h0)

/-! ## Typed references: contents moved to a buffer's own type and back -/

/-- Contents moved to a typed reference's buffer type and back are the contents. -/
theorem ofBuf_toBuf {T : BufTy} (x : TRef sig T) (v : T.Contents (Elt Ideal)) : x.ofBuf (x.toBuf v) = v := by
  obtain ⟨r, rfl, _, _⟩ := x
  rfl

/-! ## What each stretch leaves in the buffers it writes, from any contents `V` -/

section Stretches

variable (V : Valuation τ sig (Elt Ideal))

/-- At a literal reference the move between the value's type and the buffer's is the identity. -/
theorem leaf_v1 (p1 p2 p3) : (TRef.of main_v1 p1 p2 p3 : TRef sig ⟨S1600000, .i32⟩).ofBuf (V (Proc.devRef .tc main_v1))
    = V (Proc.devRef .tc main_v1) := rfl
theorem leaf_v3 (p1 p2 p3) : (TRef.of main_v3 p1 p2 p3 : TRef sig ⟨S1600000, .i32⟩).ofBuf (V (Proc.devRef .tc main_v3))
    = V (Proc.devRef .tc main_v3) := rfl
theorem leaf_arg0 (p1 p2 p3) : (TRef.of main_arg0 p1 p2 p3 : TRef sig ⟨S100000x64, .f32⟩).ofBuf (V (Proc.devRef .tc main_arg0))
    = V (Proc.devRef .tc main_arg0) := rfl
theorem leaf_arg1 (p1 p2 p3) : (TRef.of main_arg1 p1 p2 p3 : TRef sig ⟨S100000x2, .f32⟩).ofBuf (V (Proc.devRef .tc main_arg1))
    = V (Proc.devRef .tc main_arg1) := rfl
theorem out_v4 (p1 p2 p3) (x : (⟨S1600000x64, .f32⟩ : BufTy).Contents (Elt Ideal)) :
    TRef.toBuf (Val := Elt Ideal) (TRef.of main_v4 p1 p2 p3 : TRef sig ⟨S1600000x64, .f32⟩) x = x := rfl
theorem out_v5 (p1 p2 p3) (x : (⟨S1600000x64, .f32⟩ : BufTy).Contents (Elt Ideal)) :
    TRef.toBuf (Val := Elt Ideal) (TRef.of main_v5 p1 p2 p3 : TRef sig ⟨S1600000x64, .f32⟩) x = x := rfl
theorem out_v6 (p1 p2 p3) (x : (⟨S1600000x2, .f32⟩ : BufTy).Contents (Elt Ideal)) :
    TRef.toBuf (Val := Elt Ideal) (TRef.of main_v6 p1 p2 p3 : TRef sig ⟨S1600000x2, .f32⟩) x = x := rfl
theorem out_v7 (p1 p2 p3) (x : (⟨S1600000x2, .f32⟩ : BufTy).Contents (Elt Ideal)) :
    TRef.toBuf (Val := Elt Ideal) (TRef.of main_v7 p1 p2 p3 : TRef sig ⟨S1600000x2, .f32⟩) x = x := rfl

/-- Each gather's stretch leaves the bounds-tested, filled gather of its two operands. -/
theorem s1_v4 : StableHlo.after hostOps0_1 V (Proc.devRef .tc main_v4)
    = takeRows64 (V (Proc.devRef .tc main_arg0)) (V (Proc.devRef .tc main_v3)) := by
  after_results_simp
  simp only [ofBuf_toBuf, leaf_v1, leaf_v3, leaf_arg0, leaf_arg1, out_v4, out_v5, out_v6, out_v7]
  unfold takeRows64 TakeFill.mask TakeFill.col TakeFill.wrap
  rfl

theorem s2_v5 : StableHlo.after hostOps0_2 V (Proc.devRef .tc main_v5)
    = takeRows64 (V (Proc.devRef .tc main_arg0)) (V (Proc.devRef .tc main_v1)) := by
  after_results_simp
  simp only [ofBuf_toBuf, leaf_v1, leaf_v3, leaf_arg0, leaf_arg1, out_v4, out_v5, out_v6, out_v7]
  unfold takeRows64 TakeFill.mask TakeFill.col TakeFill.wrap
  rfl

theorem s3_v6 : StableHlo.after hostOps0_3 V (Proc.devRef .tc main_v6)
    = takeRows2 (V (Proc.devRef .tc main_arg1)) (V (Proc.devRef .tc main_v3)) := by
  after_results_simp
  simp only [ofBuf_toBuf, leaf_v1, leaf_v3, leaf_arg0, leaf_arg1, out_v4, out_v5, out_v6, out_v7]
  unfold takeRows2 TakeFill.mask TakeFill.col TakeFill.wrap
  rfl

theorem s4_v7 : StableHlo.after hostOps0_4 V (Proc.devRef .tc main_v7)
    = takeRows2 (V (Proc.devRef .tc main_arg1)) (V (Proc.devRef .tc main_v1)) := by
  after_results_simp
  simp only [ofBuf_toBuf, leaf_v1, leaf_v3, leaf_arg0, leaf_arg1, out_v4, out_v5, out_v6, out_v7]
  unfold takeRows2 TakeFill.mask TakeFill.col TakeFill.wrap
  rfl

/-- The last stretch before the region: differences, squared lengths, weight blocks, bias rows. -/
theorem s5_v8 : StableHlo.after hostOps0_5 V (Proc.devRef .tc main_v8)
    = (subf (V (Proc.devRef .tc main_v6)) (V (Proc.devRef .tc main_v7)) : FVec Ideal S1600000x2 .f32) := by
  after_results

theorem s5_v11 : StableHlo.after hostOps0_5 V (Proc.devRef .tc main_v11)
    = dist2 (subf (V (Proc.devRef .tc main_v6)) (V (Proc.devRef .tc main_v7))) := by
  after_results
  rfl

theorem s5_v12 : StableHlo.after hostOps0_5 V (Proc.devRef .tc main_v12)
    = extractStridedSlice S64x64 ![0, 0] (V (Proc.devRef .tc main_arg4)) slices_S129x64_S64x64_0_0 := by
  after_results

theorem s5_v13 : StableHlo.after hostOps0_5 V (Proc.devRef .tc main_v13)
    = extractStridedSlice S64x64 ![64, 0] (V (Proc.devRef .tc main_arg4)) slices_S129x64_S64x64_64_0 := by
  after_results

theorem s5_v14 : StableHlo.after hostOps0_5 V (Proc.devRef .tc main_v14)
    = extractStridedSlice S1x64 ![128, 0] (V (Proc.devRef .tc main_arg4)) slices_S129x64_S1x64_128_0 := by
  after_results

theorem s5_v15 : StableHlo.after hostOps0_5 V (Proc.devRef .tc main_v15)
    = shapeCast S1x64 (V (Proc.devRef .tc main_arg5)) shapeCasts_S64_S1x64 := by
  after_results
  rfl

theorem s5_v16 : StableHlo.after hostOps0_5 V (Proc.devRef .tc main_v16)
    = shapeCast S1x64 (V (Proc.devRef .tc main_arg7)) shapeCasts_S64_S1x64 := by
  after_results
  rfl

theorem s5_v17 : StableHlo.after hostOps0_5 V (Proc.devRef .tc main_v17)
    = shapeCast S1x64 (V (Proc.devRef .tc main_arg9)) shapeCasts_S64_S1x64 := by
  after_results
  rfl

theorem s5_v18 : StableHlo.after hostOps0_5 V (Proc.devRef .tc main_v18)
    = shapeCast S1x1 (V (Proc.devRef .tc main_arg11)) shapeCasts_S1_S1x1 := by
  after_results
  rfl

end Stretches

/-- The target nodes' positions, gathered, as the last stretch before the region finds them. -/
theorem v6_eq (c : Dev nD) : W5 m ρ c (Proc.devRef .tc main_v6) = takeRows2 (m ((c : Thread nD τ).loc main_arg1)) (dst m ρ c) := by
  rw [keep4 m ρ c main_v6]
  refine (s3_v6 (W3 m ρ c)).trans ?_
  rw [launch3 m ρ c main_arg1, keep2 m ρ c main_v3, keep1 m ρ c main_v3]

/-- The source nodes' positions, gathered. -/
theorem v7_eq (c : Dev nD) : W5 m ρ c (Proc.devRef .tc main_v7) = takeRows2 (m ((c : Thread nD τ).loc main_arg1)) (src m ρ c) := by
  refine (s4_v7 (W4 m ρ c)).trans ?_
  rw [launch4 m ρ c main_arg1, keep3 m ρ c main_v1, keep2 m ρ c main_v1, keep1 m ρ c main_v1]

/-! ## The region's inputs -/

/-- The target row is row 1 of the edge list, flattened. -/
theorem dst_eq (c : Dev nD) : dst m ρ c
    = shapeCast S1600000 (extractStridedSlice S1x1600000 ![1, 0] (m ((c : Thread nD τ).loc main_arg2)) slices_S2x1600000_S1x1600000_1_0) shapeCasts_S1x1600000_S1600000 := by
  show StableHlo.after hostOps0 (W0 m ρ c) (Proc.devRef .tc main_v3) = _
  after_results
  rfl

/-- The source row is row 0 of the edge list, flattened. -/
theorem src_eq (c : Dev nD) : src m ρ c
    = shapeCast S1600000 (extractStridedSlice S1x1600000 ![0, 0] (m ((c : Thread nD τ).loc main_arg2)) slices_S2x1600000_S1x1600000_0_0) shapeCasts_S1x1600000_S1600000 := by
  show StableHlo.after hostOps0 (W0 m ρ c) (Proc.devRef .tc main_v1) = _
  after_results
  rfl

/-- The target row is still there when the first region is entered. -/
theorem e_v3 (c : Dev nD) : W6 m ρ c (Proc.devRef .tc main_v3) = dst m ρ c := by
  rw [keep5 m ρ c main_v3, keep4 m ρ c main_v3, keep3 m ρ c main_v3, keep2 m ρ c main_v3, keep1 m ρ c main_v3]

theorem e_v4 (c : Dev nD) : W6 m ρ c (Proc.devRef .tc main_v4) = takeRows64 (m ((c : Thread nD τ).loc main_arg0)) (dst m ρ c) := by
  rw [keep5 m ρ c main_v4, keep4 m ρ c main_v4, keep3 m ρ c main_v4, keep2 m ρ c main_v4]
  refine (s1_v4 (W1 m ρ c)).trans ?_
  rw [launch1 m ρ c main_arg0]

theorem e_v5 (c : Dev nD) : W6 m ρ c (Proc.devRef .tc main_v5) = takeRows64 (m ((c : Thread nD τ).loc main_arg0)) (src m ρ c) := by
  rw [keep5 m ρ c main_v5, keep4 m ρ c main_v5, keep3 m ρ c main_v5]
  refine (s2_v5 (W2 m ρ c)).trans ?_
  rw [launch2 m ρ c main_arg0, keep1 m ρ c main_v1]

theorem e_v8 (c : Dev nD) : W6 m ρ c (Proc.devRef .tc main_v8) = relPos (m ((c : Thread nD τ).loc main_arg1)) (dst m ρ c) (src m ρ c) := by
  refine (s5_v8 (W5 m ρ c)).trans ?_
  rw [v6_eq m ρ c, v7_eq m ρ c]
  rfl

theorem e_v11 (c : Dev nD) : W6 m ρ c (Proc.devRef .tc main_v11) = dist2 (relPos (m ((c : Thread nD τ).loc main_arg1)) (dst m ρ c) (src m ρ c)) := by
  refine (s5_v11 (W5 m ρ c)).trans ?_
  rw [v6_eq m ρ c, v7_eq m ρ c]
  rfl

theorem e_v12 (c : Dev nD) : W6 m ρ c (Proc.devRef .tc main_v12) = extractStridedSlice S64x64 ![0, 0] (m ((c : Thread nD τ).loc main_arg4)) slices_S129x64_S64x64_0_0 := by
  refine (s5_v12 (W5 m ρ c)).trans ?_
  rw [launch5 m ρ c main_arg4]

theorem e_v13 (c : Dev nD) : W6 m ρ c (Proc.devRef .tc main_v13) = extractStridedSlice S64x64 ![64, 0] (m ((c : Thread nD τ).loc main_arg4)) slices_S129x64_S64x64_64_0 := by
  refine (s5_v13 (W5 m ρ c)).trans ?_
  rw [launch5 m ρ c main_arg4]

theorem e_v14 (c : Dev nD) : W6 m ρ c (Proc.devRef .tc main_v14) = extractStridedSlice S1x64 ![128, 0] (m ((c : Thread nD τ).loc main_arg4)) slices_S129x64_S1x64_128_0 := by
  refine (s5_v14 (W5 m ρ c)).trans ?_
  rw [launch5 m ρ c main_arg4]

theorem e_v15 (c : Dev nD) : W6 m ρ c (Proc.devRef .tc main_v15) = shapeCast S1x64 (m ((c : Thread nD τ).loc main_arg5)) shapeCasts_S64_S1x64 := by
  refine (s5_v15 (W5 m ρ c)).trans ?_
  rw [launch5 m ρ c main_arg5]

theorem e_v16 (c : Dev nD) : W6 m ρ c (Proc.devRef .tc main_v16) = shapeCast S1x64 (m ((c : Thread nD τ).loc main_arg7)) shapeCasts_S64_S1x64 := by
  refine (s5_v16 (W5 m ρ c)).trans ?_
  rw [launch5 m ρ c main_arg7]

theorem e_v17 (c : Dev nD) : W6 m ρ c (Proc.devRef .tc main_v17) = shapeCast S1x64 (m ((c : Thread nD τ).loc main_arg9)) shapeCasts_S64_S1x64 := by
  refine (s5_v17 (W5 m ρ c)).trans ?_
  rw [launch5 m ρ c main_arg9]

theorem e_v18 (c : Dev nD) : W6 m ρ c (Proc.devRef .tc main_v18) = shapeCast S1x1 (m ((c : Thread nD τ).loc main_arg11)) shapeCasts_S1_S1x1 := by
  refine (s5_v18 (W5 m ρ c)).trans ?_
  rw [launch5 m ρ c main_arg11]

theorem e_arg6 (c : Dev nD) : W6 m ρ c (Proc.devRef .tc main_arg6) = (m ((c : Thread nD τ).loc main_arg6)) := by
  exact launch6 m ρ c main_arg6

theorem e_arg8 (c : Dev nD) : W6 m ρ c (Proc.devRef .tc main_arg8) = (m ((c : Thread nD τ).loc main_arg8)) := by
  exact launch6 m ρ c main_arg8

theorem e_arg10 (c : Dev nD) : W6 m ρ c (Proc.devRef .tc main_arg10) = (m ((c : Thread nD τ).loc main_arg10)) := by
  exact launch6 m ρ c main_arg10

end Cert.HostA

end
-- ==== Proof.HostB.lean ====
/-
  What the update kernel's region is entered with.

  Between the two regions the program sums the messages into their target nodes (a scattered sum into zeros), counts
  each node's incoming edges the same way, sums the position messages and divides them by the count (at least one),
  slices the update network's first weight matrix into its two blocks and lays its bias vectors out as rows. Each of
  the second region's input arrays is one fixed term of the launch arrays, the edge list's target row, and the two
  arrays the first region leaves.
-/
import proofs.«400872_j49581102465544_2_alg».proof.Proof.Gen.KernelIdeal.Frame
import Idealize.ShloMosaic.Lib.StableHlo.Run
import Idealize.ShloMosaic.PureOps.Ideal

set_option maxRecDepth 16384

noncomputable section

namespace Cert.HostB

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- A stretch of host operations leaves a buffer that none of them writes as it was: the writes of each operation are
    one reference, different from the buffer's. -/
macro "stretch_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The launch array `main_arg12` is still there when the first region is left: no stretch and no region writes it. -/
theorem left_arg12 (c : Dev nD) : W7 m ρ c (Proc.devRef .tc main_arg12) = m ((c : Thread nD τ).loc main_arg12) :=
  calc W7 m ρ c (Proc.devRef .tc main_arg12)
    _ = W6 m ρ c (Proc.devRef .tc main_arg12) := W7_of_ne m ρ c main_arg12 (by decide)
    _ = W5 m ρ c (Proc.devRef .tc main_arg12) := by stretch_keeps hostOps0_5
    _ = W4 m ρ c (Proc.devRef .tc main_arg12) := by stretch_keeps hostOps0_4
    _ = W3 m ρ c (Proc.devRef .tc main_arg12) := by stretch_keeps hostOps0_3
    _ = W2 m ρ c (Proc.devRef .tc main_arg12) := by stretch_keeps hostOps0_2
    _ = W1 m ρ c (Proc.devRef .tc main_arg12) := by stretch_keeps hostOps0_1
    _ = W0 m ρ c (Proc.devRef .tc main_arg12) := by stretch_keeps hostOps0
    _ = m ((c : Thread nD τ).loc main_arg12) := rfl

/-- The launch array `main_arg13` is still there when the first region is left: no stretch and no region writes it. -/
theorem left_arg13 (c : Dev nD) : W7 m ρ c (Proc.devRef .tc main_arg13) = m ((c : Thread nD τ).loc main_arg13) :=
  calc W7 m ρ c (Proc.devRef .tc main_arg13)
    _ = W6 m ρ c (Proc.devRef .tc main_arg13) := W7_of_ne m ρ c main_arg13 (by decide)
    _ = W5 m ρ c (Proc.devRef .tc main_arg13) := by stretch_keeps hostOps0_5
    _ = W4 m ρ c (Proc.devRef .tc main_arg13) := by stretch_keeps hostOps0_4
    _ = W3 m ρ c (Proc.devRef .tc main_arg13) := by stretch_keeps hostOps0_3
    _ = W2 m ρ c (Proc.devRef .tc main_arg13) := by stretch_keeps hostOps0_2
    _ = W1 m ρ c (Proc.devRef .tc main_arg13) := by stretch_keeps hostOps0_1
    _ = W0 m ρ c (Proc.devRef .tc main_arg13) := by stretch_keeps hostOps0
    _ = m ((c : Thread nD τ).loc main_arg13) := rfl

/-- The launch array `main_arg15` is still there when the first region is left: no stretch and no region writes it. -/
theorem left_arg15 (c : Dev nD) : W7 m ρ c (Proc.devRef .tc main_arg15) = m ((c : Thread nD τ).loc main_arg15) :=
  calc W7 m ρ c (Proc.devRef .tc main_arg15)
    _ = W6 m ρ c (Proc.devRef .tc main_arg15) := W7_of_ne m ρ c main_arg15 (by decide)
    _ = W5 m ρ c (Proc.devRef .tc main_arg15) := by stretch_keeps hostOps0_5
    _ = W4 m ρ c (Proc.devRef .tc main_arg15) := by stretch_keeps hostOps0_4
    _ = W3 m ρ c (Proc.devRef .tc main_arg15) := by stretch_keeps hostOps0_3
    _ = W2 m ρ c (Proc.devRef .tc main_arg15) := by stretch_keeps hostOps0_2
    _ = W1 m ρ c (Proc.devRef .tc main_arg15) := by stretch_keeps hostOps0_1
    _ = W0 m ρ c (Proc.devRef .tc main_arg15) := by stretch_keeps hostOps0
    _ = m ((c : Thread nD τ).loc main_arg15) := rfl

/-- The edge list's target row, made by the first stretch, is untouched from there to the first region's exit. -/
theorem left_v3 (c : Dev nD) : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := by stretch_keeps hostOps0_5
    _ = W4 m ρ c (Proc.devRef .tc main_v3) := by stretch_keeps hostOps0_4
    _ = W3 m ρ c (Proc.devRef .tc main_v3) := by stretch_keeps hostOps0_3
    _ = W2 m ρ c (Proc.devRef .tc main_v3) := by stretch_keeps hostOps0_2
    _ = W1 m ρ c (Proc.devRef .tc main_v3) := by stretch_keeps hostOps0_1

/-- The first region's two output arrays at its exit are what its pipeline leaves. -/
theorem left_v19_0 (c : Dev nD) : W7 m ρ c (Proc.devRef .tc main_v19_0) = (dat0 (V6 m ρ) c).arrAt 14 cfg0.N := W7_arr m ρ c 14
theorem left_v19_1 (c : Dev nD) : W7 m ρ c (Proc.devRef .tc main_v19_1) = (dat0 (V6 m ρ) c).arrAt 15 cfg0.N := W7_arr m ρ c 15

/-- The launch arrays are still there when the second region is entered. -/
theorem f_arg0 (c : Dev nD) : W8 m ρ c (Proc.devRef .tc main_arg0) = (m ((c : Thread nD τ).loc main_arg0)) := by
  calc W8 m ρ c (Proc.devRef .tc main_arg0)
    _ = W7 m ρ c (Proc.devRef .tc main_arg0) := by stretch_keeps hostOps1
    _ = W6 m ρ c (Proc.devRef .tc main_arg0) := W7_of_ne m ρ c main_arg0 (by decide)
    _ = W5 m ρ c (Proc.devRef .tc main_arg0) := by stretch_keeps hostOps0_5
    _ = W4 m ρ c (Proc.devRef .tc main_arg0) := by stretch_keeps hostOps0_4
    _ = W3 m ρ c (Proc.devRef .tc main_arg0) := by stretch_keeps hostOps0_3
    _ = W2 m ρ c (Proc.devRef .tc main_arg0) := by stretch_keeps hostOps0_2
    _ = W1 m ρ c (Proc.devRef .tc main_arg0) := by stretch_keeps hostOps0_1
    _ = W0 m ρ c (Proc.devRef .tc main_arg0) := by stretch_keeps hostOps0
    _ = m ((c : Thread nD τ).loc main_arg0) := rfl

theorem f_arg1 (c : Dev nD) : W8 m ρ c (Proc.devRef .tc main_arg1) = (m ((c : Thread nD τ).loc main_arg1)) := by
  calc W8 m ρ c (Proc.devRef .tc main_arg1)
    _ = W7 m ρ c (Proc.devRef .tc main_arg1) := by stretch_keeps hostOps1
    _ = W6 m ρ c (Proc.devRef .tc main_arg1) := W7_of_ne m ρ c main_arg1 (by decide)
    _ = W5 m ρ c (Proc.devRef .tc main_arg1) := by stretch_keeps hostOps0_5
    _ = W4 m ρ c (Proc.devRef .tc main_arg1) := by stretch_keeps hostOps0_4
    _ = W3 m ρ c (Proc.devRef .tc main_arg1) := by stretch_keeps hostOps0_3
    _ = W2 m ρ c (Proc.devRef .tc main_arg1) := by stretch_keeps hostOps0_2
    _ = W1 m ρ c (Proc.devRef .tc main_arg1) := by stretch_keeps hostOps0_1
    _ = W0 m ρ c (Proc.devRef .tc main_arg1) := by stretch_keeps hostOps0
    _ = m ((c : Thread nD τ).loc main_arg1) := rfl

theorem f_arg14 (c : Dev nD) : W8 m ρ c (Proc.devRef .tc main_arg14) = (m ((c : Thread nD τ).loc main_arg14)) := by
  calc W8 m ρ c (Proc.devRef .tc main_arg14)
    _ = W7 m ρ c (Proc.devRef .tc main_arg14) := by stretch_keeps hostOps1
    _ = W6 m ρ c (Proc.devRef .tc main_arg14) := W7_of_ne m ρ c main_arg14 (by decide)
    _ = W5 m ρ c (Proc.devRef .tc main_arg14) := by stretch_keeps hostOps0_5
    _ = W4 m ρ c (Proc.devRef .tc main_arg14) := by stretch_keeps hostOps0_4
    _ = W3 m ρ c (Proc.devRef .tc main_arg14) := by stretch_keeps hostOps0_3
    _ = W2 m ρ c (Proc.devRef .tc main_arg14) := by stretch_keeps hostOps0_2
    _ = W1 m ρ c (Proc.devRef .tc main_arg14) := by stretch_keeps hostOps0_1
    _ = W0 m ρ c (Proc.devRef .tc main_arg14) := by stretch_keeps hostOps0
    _ = m ((c : Thread nD τ).loc main_arg14) := rfl

/-- The aggregated messages: the first region's message array summed into its edges' target nodes. -/
theorem f_v22 (c : Dev nD) : W8 m ρ c (Proc.devRef .tc main_v22)
    = Host.scatterAdd scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (W1 m ρ c (Proc.devRef .tc main_v3)))
        ((dat0 (V6 m ρ) c).arrAt 14 cfg0.N) := by
  -- The stretch reads two arrays made before it; with those two named, the buffer is the stretch's own operations on them.
  have h3 := left_v3 m ρ c
  have h14 := left_v19_0 m ρ c
  generalize W1 m ρ c (Proc.devRef .tc main_v3) = t3 at h3 ⊢
  generalize (dat0 (V6 m ρ) c).arrAt 14 cfg0.N = a14 at h14 ⊢
  show StableHlo.after hostOps1 (W7 m ρ c) (Proc.devRef .tc main_v22) = _
  after_results_simp
  rw [h3, h14]

/-- The aggregated position updates: the position messages summed into the target nodes, over the number of incoming
    edges or one. -/
theorem f_v33 (c : Dev nD) : W8 m ρ c (Proc.devRef .tc main_v33)
    = Host.divf
        (Host.scatterAdd scatter_S100000x2_S1600000x1_S1600000x2_1_0_0_1
          (broadcastInDim S100000x2 ![] bcast_S_S100000x2 (constant (F := Ideal) S_ .f32 0x00000000#32))
          (broadcastInDim S1600000x1 ![0] bcast_S1600000_S1600000x1_0 (W1 m ρ c (Proc.devRef .tc main_v3)))
          ((dat0 (V6 m ρ) c).arrAt 15 cfg0.N))
        (broadcastInDim S100000x2 ![0, 1] bcast_S100000x1_S100000x2_0_1
          (maximumf
            (Host.scatterAdd scatter_S100000x1_S1600000x1_S1600000x1_1_0_0_1
              (broadcastInDim S100000x1 ![] bcast_S_S100000x1 (constant (F := Ideal) S_ .f32 0x00000000#32))
              (broadcastInDim S1600000x1 ![0] bcast_S1600000_S1600000x1_0 (W1 m ρ c (Proc.devRef .tc main_v3)))
              (broadcastInDim S1600000x1 ![] bcast_S_S1600000x1 (constant (F := Ideal) S_ .f32 0x3F800000#32)))
            (broadcastInDim S100000x1 ![] bcast_S_S100000x1 (constant (F := Ideal) S_ .f32 0x3F800000#32)))) := by
  -- The stretch reads two arrays made before it; with those two named, the buffer is the stretch's own operations on them.
  have h3 := left_v3 m ρ c
  have h15 := left_v19_1 m ρ c
  generalize W1 m ρ c (Proc.devRef .tc main_v3) = t3 at h3 ⊢
  generalize (dat0 (V6 m ρ) c).arrAt 15 cfg0.N = a15 at h15 ⊢
  show StableHlo.after hostOps1 (W7 m ρ c) (Proc.devRef .tc main_v33) = _
  after_results_simp
  rw [h3, h15]

theorem f_v34 (c : Dev nD) : W8 m ρ c (Proc.devRef .tc main_v34) = extractStridedSlice S64x64 ![0, 0] (m ((c : Thread nD τ).loc main_arg12)) slices_S128x64_S64x64_0_0 := by
  show StableHlo.after hostOps1 (W7 m ρ c) (Proc.devRef .tc main_v34) = _
  after_results
  rw [left_arg12]

theorem f_v35 (c : Dev nD) : W8 m ρ c (Proc.devRef .tc main_v35) = extractStridedSlice S64x64 ![64, 0] (m ((c : Thread nD τ).loc main_arg12)) slices_S128x64_S64x64_64_0 := by
  show StableHlo.after hostOps1 (W7 m ρ c) (Proc.devRef .tc main_v35) = _
  after_results
  rw [left_arg12]

theorem f_v36 (c : Dev nD) : W8 m ρ c (Proc.devRef .tc main_v36) = shapeCast S1x64 (m ((c : Thread nD τ).loc main_arg13)) shapeCasts_S64_S1x64 := by
  show StableHlo.after hostOps1 (W7 m ρ c) (Proc.devRef .tc main_v36) = _
  after_results
  rw [left_arg13]
  rfl

theorem f_v37 (c : Dev nD) : W8 m ρ c (Proc.devRef .tc main_v37) = shapeCast S1x64 (m ((c : Thread nD τ).loc main_arg15)) shapeCasts_S64_S1x64 := by
  show StableHlo.after hostOps1 (W7 m ρ c) (Proc.devRef .tc main_v37) = _
  after_results
  rw [left_arg15]
  rfl

end Cert.HostB

end
-- ==== Proof.RefValue.lean ====
/-
  The reference's stages, read at an index, as the layer's row functions.

  The reference gathers the end nodes' rows for every edge, joins `(h_i, h_j, d2)` into rows of 129 numbers and
  multiplies by the whole first weight matrix; the row functions of the specification take the same weight matrix
  in its three blocks. Splitting each sum over 129 (or 128) terms into its blocks is what joins the two spellings.
  The gathers and the scattered sums are left as they are: the statements below carry them as opaque arrays.
-/
import proofs.«400872_j49581102465544_2_alg».proof.Proof.Gen.ReferenceIdeal.Read
import proofs.«400872_j49581102465544_2_alg».proof.Proof.Spec
import proofs.«400872_j49581102465544_2_alg».proof.Proof.LibRowOps

noncomputable section

namespace Cert.RefValue

open Idealize.ShloMosaic Idealize.ShloMosaic.ValueIdx Cert.ReferenceIdeal Cert.ReferenceIdeal.Read
open scoped BigOperators

/-! ## Indices, and a row of pieces joined along the columns

  Nothing in this part depends on the program: rank-2 indices are equal when their coordinates are, and a
  concatenation along the columns, read at `(p, q)`, is the piece whose column span holds `q`, read at `q` less
  the widths of the pieces before it. -/

section General
variable {α : Type}

/-- Two rank-2 indices with the same coordinates are the same index. -/
theorem idx2_ext {n0 n1 : ℕ} {i j : (⟨2, ![n0, n1]⟩ : Shape).Idx} (h0 : (i 0).val = (j 0).val) (h1 : (i 1).val = (j 1).val) :
    i = j :=
  funext fun a => Fin.ext (by match a with | ⟨0, _⟩ => exact h0 | ⟨1, _⟩ => exact h1)

/-- Two rank-1 indices with the same coordinate are the same index. -/
theorem idx1_ext {n : ℕ} {i j : (⟨1, ![n]⟩ : Shape).Idx} (h0 : (i 0).val = (j 0).val) : i = j :=
  funext fun a => Fin.ext (by match a with | ⟨0, _⟩ => exact h0)

/-- `[a | b | c]` with widths 64, 64, 1, at a column below 64: the first piece at that column. -/
theorem cat3_lo {n : ℕ} (a b : (⟨2, ![n, 64]⟩ : Shape).Idx → α) (c : (⟨2, ![n, 1]⟩ : Shape).Idx → α)
    (h : Shape.Concatenates [(⟨2, ![n, 64]⟩ : Shape), ⟨2, ![n, 64]⟩, ⟨2, ![n, 1]⟩] ⟨2, ![n, 129]⟩ 1) (p : Fin n) (k : Fin 64) :
    concatenate ⟨2, ![n, 129]⟩ 1 [⟨⟨2, ![n, 64]⟩, a⟩, ⟨⟨2, ![n, 64]⟩, b⟩, ⟨⟨2, ![n, 1]⟩, c⟩] h (ix2 p (⟨k.val, by omega⟩ : Fin 129))
      = a (ix2 p k) :=
  concatenate_apply_piece 1 ([⟨⟨2, ![n, 64]⟩, a⟩, ⟨⟨2, ![n, 64]⟩, b⟩, ⟨⟨2, ![n, 1]⟩, c⟩] : List ((s : Shape) × (s.Idx → α))) h
    (ix2 p (⟨k.val, by omega⟩ : Fin 129)) 0 (by simp) _ a rfl rfl 0 rfl (ix2 p k)
    (fun bb hb => by match bb with | ⟨0, _⟩ => rfl | ⟨1, _⟩ => exact absurd rfl hb)
    (by show 0 + k.val = k.val; omega)

/-- The same row at column `64 + k`: the second piece at column `k`. -/
theorem cat3_mid {n : ℕ} (a b : (⟨2, ![n, 64]⟩ : Shape).Idx → α) (c : (⟨2, ![n, 1]⟩ : Shape).Idx → α)
    (h : Shape.Concatenates [(⟨2, ![n, 64]⟩ : Shape), ⟨2, ![n, 64]⟩, ⟨2, ![n, 1]⟩] ⟨2, ![n, 129]⟩ 1) (p : Fin n) (k : Fin 64) :
    concatenate ⟨2, ![n, 129]⟩ 1 [⟨⟨2, ![n, 64]⟩, a⟩, ⟨⟨2, ![n, 64]⟩, b⟩, ⟨⟨2, ![n, 1]⟩, c⟩] h (ix2 p (⟨64 + k.val, by omega⟩ : Fin 129))
      = b (ix2 p k) :=
  concatenate_apply_piece 1 ([⟨⟨2, ![n, 64]⟩, a⟩, ⟨⟨2, ![n, 64]⟩, b⟩, ⟨⟨2, ![n, 1]⟩, c⟩] : List ((s : Shape) × (s.Idx → α))) h
    (ix2 p (⟨64 + k.val, by omega⟩ : Fin 129)) 1 (by simp) _ b rfl rfl 64 rfl (ix2 p k)
    (fun bb hb => by match bb with | ⟨0, _⟩ => rfl | ⟨1, _⟩ => exact absurd rfl hb)
    (by show 64 + k.val = 64 + k.val; rfl)

/-- The same row at its last column, 128: the third piece at its one column. -/
theorem cat3_hi {n : ℕ} (a b : (⟨2, ![n, 64]⟩ : Shape).Idx → α) (c : (⟨2, ![n, 1]⟩ : Shape).Idx → α)
    (h : Shape.Concatenates [(⟨2, ![n, 64]⟩ : Shape), ⟨2, ![n, 64]⟩, ⟨2, ![n, 1]⟩] ⟨2, ![n, 129]⟩ 1) (p : Fin n) :
    concatenate ⟨2, ![n, 129]⟩ 1 [⟨⟨2, ![n, 64]⟩, a⟩, ⟨⟨2, ![n, 64]⟩, b⟩, ⟨⟨2, ![n, 1]⟩, c⟩] h (ix2 p (⟨128, by omega⟩ : Fin 129))
      = c (ix2 p (0 : Fin 1)) :=
  concatenate_apply_piece 1 ([⟨⟨2, ![n, 64]⟩, a⟩, ⟨⟨2, ![n, 64]⟩, b⟩, ⟨⟨2, ![n, 1]⟩, c⟩] : List ((s : Shape) × (s.Idx → α))) h
    (ix2 p (⟨128, by omega⟩ : Fin 129)) 2 (by simp) _ c rfl rfl 128 rfl (ix2 p (0 : Fin 1))
    (fun bb hb => by match bb with | ⟨0, _⟩ => rfl | ⟨1, _⟩ => exact absurd rfl hb)
    (by show 128 + 0 = 128; rfl)

/-- `[a | b]` with widths 64, 64, at a column below 64: the first piece at that column. -/
theorem cat2_lo {n : ℕ} (a b : (⟨2, ![n, 64]⟩ : Shape).Idx → α)
    (h : Shape.Concatenates [(⟨2, ![n, 64]⟩ : Shape), ⟨2, ![n, 64]⟩] ⟨2, ![n, 128]⟩ 1) (p : Fin n) (k : Fin 64) :
    concatenate ⟨2, ![n, 128]⟩ 1 [⟨⟨2, ![n, 64]⟩, a⟩, ⟨⟨2, ![n, 64]⟩, b⟩] h (ix2 p (⟨k.val, by omega⟩ : Fin 128)) = a (ix2 p k) :=
  concatenate_pair_apply_left 1 a b h (ix2 p (⟨k.val, by omega⟩ : Fin 128)) rfl (ix2 p k)
    (fun bb => by match bb with | ⟨0, _⟩ => rfl | ⟨1, _⟩ => rfl)

/-- The same row at column `64 + k`: the second piece at column `k`. -/
theorem cat2_hi {n : ℕ} (a b : (⟨2, ![n, 64]⟩ : Shape).Idx → α)
    (h : Shape.Concatenates [(⟨2, ![n, 64]⟩ : Shape), ⟨2, ![n, 64]⟩] ⟨2, ![n, 128]⟩ 1) (p : Fin n) (k : Fin 64) :
    concatenate ⟨2, ![n, 128]⟩ 1 [⟨⟨2, ![n, 64]⟩, a⟩, ⟨⟨2, ![n, 64]⟩, b⟩] h (ix2 p (⟨64 + k.val, by omega⟩ : Fin 128)) = b (ix2 p k) :=
  concatenate_pair_apply_right 1 a b h (ix2 p (⟨64 + k.val, by omega⟩ : Fin 128)) rfl rfl (ix2 p k)
    (fun bb hb => by match bb with | ⟨0, _⟩ => rfl | ⟨1, _⟩ => exact absurd rfl hb)
    (by show k.val + 64 = 64 + k.val; omega)

end General

variable (x0 : (⟨S100000x64, .f32⟩ : BufTy).Contents (Elt Ideal)) (x1 : (⟨S100000x2, .f32⟩ : BufTy).Contents (Elt Ideal))
  (x2 : (⟨S2x1600000, .i32⟩ : BufTy).Contents (Elt Ideal)) (x4 : (⟨S129x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal)) (x8 : (⟨S64x64, .f32⟩ : BufTy).Contents (Elt Ideal))
  (x9 : (⟨S64, .f32⟩ : BufTy).Contents (Elt Ideal)) (x10 : (⟨S64x1, .f32⟩ : BufTy).Contents (Elt Ideal))
  (x11 : (⟨S1, .f32⟩ : BufTy).Contents (Elt Ideal)) (x12 : (⟨S128x64, .f32⟩ : BufTy).Contents (Elt Ideal))
  (x13 : (⟨S64, .f32⟩ : BufTy).Contents (Elt Ideal)) (x14 : (⟨S64x64, .f32⟩ : BufTy).Contents (Elt Ideal))
  (x15 : (⟨S64, .f32⟩ : BufTy).Contents (Elt Ideal))

/-! ## The zero the rectifiers compare with, and the bias rows -/

/-- The first rectifier's zero array holds the zero word everywhere. -/
theorem zero0_at (i : S1600000x64.Idx) : val_main_call0_v0 (F := Ideal) i = Ideal.ofBits .f32 0x00000000#32 := by
  rw [val_main_call0_v0_apply]; rfl

/-- So does the second's. -/
theorem zero1_at (i : S1600000x64.Idx) : val_main_call1_v0 (F := Ideal) i = Ideal.ofBits .f32 0x00000000#32 := by
  rw [val_main_call1_v0_apply]; rfl

/-- So does the third's. -/
theorem zero2_at (i : S1600000x64.Idx) : val_main_call2_v0 (F := Ideal) i = Ideal.ofBits .f32 0x00000000#32 := by
  rw [val_main_call2_v0_apply]; rfl

/-- So does the fourth's, over the nodes. -/
theorem zero3_at (i : S100000x64.Idx) : val_main_call3_v0 (F := Ideal) i = Ideal.ofBits .f32 0x00000000#32 := by
  rw [val_main_call3_v0_apply]; rfl

/-- The first message bias, broadcast down the edges, at `(e, c)`: entry `c`. -/
theorem v39_at (e : Fin 1600000) (c : Fin 64) : val_main_v39 (F := Ideal) x5 (ix2 e c) = x5 (ix1 c) := by
  rw [val_main_v39_apply, val_main_v38_apply]
  exact congrArg x5 (idx1_ext rfl)

/-- The second message bias at `(e, c)`. -/
theorem v44_at (e : Fin 1600000) (c : Fin 64) : val_main_v44 (F := Ideal) x7 (ix2 e c) = x7 (ix1 c) := by
  rw [val_main_v44_apply, val_main_v43_apply]
  exact congrArg x7 (idx1_ext rfl)

/-- The position network's first bias at `(e, c)`. -/
theorem v49_at (e : Fin 1600000) (c : Fin 64) : val_main_v49 (F := Ideal) x9 (ix2 e c) = x9 (ix1 c) := by
  rw [val_main_v49_apply, val_main_v48_apply]
  exact congrArg x9 (idx1_ext rfl)

/-- The position network's last bias, one number, at `(e, 0)`. -/
theorem v54_at (e : Fin 1600000) : val_main_v54 (F := Ideal) x11 (ix2 e (0 : Fin 1)) = x11 (ix1 (0 : Fin 1)) := by
  rw [val_main_v54_apply, val_main_v53_apply]
  exact congrArg x11 (idx1_ext rfl)

/-- The update network's first bias at `(n, c)`. -/
theorem v75_at (n : Fin 100000) (c : Fin 64) : val_main_v75 (F := Ideal) x13 (ix2 n c) = x13 (ix1 c) := by
  rw [val_main_v75_apply, val_main_v74_apply]
  exact congrArg x13 (idx1_ext rfl)

/-- The update network's second bias at `(n, c)`. -/
theorem v80_at (n : Fin 100000) (c : Fin 64) : val_main_v80 (F := Ideal) x15 (ix2 n c) = x15 (ix1 c) := by
  rw [val_main_v80_apply, val_main_v79_apply]
  exact congrArg x15 (idx1_ext rfl)

/-! ## The message network -/

/-- The joined row `(h_i | h_j | d2)` of edge `e` against column `c` of the first weight matrix: the 129 terms fall
    into the block that meets `h_i`, the block that meets `h_j` and the one term that meets `d2`. -/
theorem v37_at (e : Fin 1600000) (c : Fin 64) :
    val_main_v37 (F := Ideal) x0 x1 x2 x4 (ix2 e c)
      = ((∑ k : Fin 64, val_main_v10 (F := Ideal) x0 x2 (ix2 e k) * x4 (ix2 (⟨k.val, by omega⟩ : Fin 129) c))
          + (∑ k : Fin 64, val_main_v17 (F := Ideal) x0 x2 (ix2 e k) * x4 (ix2 (⟨64 + k.val, by omega⟩ : Fin 129) c)))
        + val_main_v35 (F := Ideal) x1 x2 (ix2 e (0 : Fin 1)) * x4 (ix2 (⟨128, by omega⟩ : Fin 129) c) := by
  have hl : ∀ k : Fin 129, lidx_main_v37 (ix2 e c) k = ix2 e k := fun k => idx2_ext rfl rfl
  have hr : ∀ k : Fin 129, ridx_main_v37 (ix2 e c) k = ix2 k c := fun k => idx2_ext rfl rfl
  rw [val_main_v37_apply, Spec.sum129]
  refine congrArg₂ (· + ·) (congrArg₂ (· + ·) (Finset.sum_congr rfl fun k _ => ?_) (Finset.sum_congr rfl fun k _ => ?_)) ?_
  · rw [hl, hr]; unfold val_main_v36; rw [cat3_lo]
  · rw [hl, hr]; unfold val_main_v36; rw [cat3_mid]
  · rw [hl, hr]; unfold val_main_v36; rw [cat3_hi]

/-- The first message layer, rectified, at `(e, c)`. -/
theorem v41_at (e : Fin 1600000) (c : Fin 64) :
    val_main_v41 (F := Ideal) x0 x1 x2 x4 x5 (ix2 e c)
      = Spec.msg1 (fun k => val_main_v10 (F := Ideal) x0 x2 (ix2 e k)) (fun k => val_main_v17 (F := Ideal) x0 x2 (ix2 e k))
          (val_main_v35 (F := Ideal) x1 x2 (ix2 e (0 : Fin 1)))
          (fun k c => x4 (ix2 (⟨k.val, by omega⟩ : Fin 129) c)) (fun k c => x4 (ix2 (⟨64 + k.val, by omega⟩ : Fin 129) c))
          (fun c => x4 (ix2 (⟨128, by omega⟩ : Fin 129) c)) (fun c => x5 (ix1 c)) c := by
  rw [val_main_v41_apply, val_main_v40_apply, v37_at, v39_at, zero0_at]
  rfl

/-- The second message layer's product at `(e, q)`, from any reading `m` of the first layer's row `e`. -/
theorem v42_at (e : Fin 1600000) (q : Fin 64) (m : Fin 64 → EReal)
    (hm : ∀ k, val_main_v41 (F := Ideal) x0 x1 x2 x4 x5 (ix2 e k) = m k) :
    val_main_v42 (F := Ideal) x0 x1 x2 x4 x5 x6 (ix2 e q) = ∑ k : Fin 64, m k * x6 (ix2 k q) := by
  have hl : ∀ k : Fin 64, lidx_main_v42 (ix2 e q) k = ix2 e k := fun k => idx2_ext rfl rfl
  have hr : ∀ k : Fin 64, ridx_main_v42 (ix2 e q) k = ix2 k q := fun k => idx2_ext rfl rfl
  rw [val_main_v42_apply]
  exact Finset.sum_congr rfl fun k _ => by rw [hl, hr, hm]

/-- The reference's message array at `(e, q)`: the message of edge `e`, from row `e` of the two gathered feature
    arrays and of the squared distances. -/
theorem msg_apply (e : Fin 1600000) (q : Fin 64) :
    val_main_v46 (F := Ideal) x0 x1 x2 x4 x5 x6 x7 (ix2 e q)
      = Spec.msg2 (fun k => val_main_v10 (F := Ideal) x0 x2 (ix2 e k)) (fun k => val_main_v17 (F := Ideal) x0 x2 (ix2 e k))
          (val_main_v35 (F := Ideal) x1 x2 (ix2 e (0 : Fin 1)))
          (fun k c => x4 (ix2 (⟨k.val, by omega⟩ : Fin 129) c)) (fun k c => x4 (ix2 (⟨64 + k.val, by omega⟩ : Fin 129) c))
          (fun c => x4 (ix2 (⟨128, by omega⟩ : Fin 129) c)) (fun c => x5 (ix1 c))
          (fun k c => x6 (ix2 k c)) (fun c => x7 (ix1 c)) q := by
  rw [val_main_v46_apply, val_main_v45_apply,
    v42_at x0 x1 x2 x4 x5 x6 e q _ (fun k => v41_at x0 x1 x2 x4 x5 e k), v44_at, zero1_at]
  rfl

/-! ## The position weight -/

/-- The position network's first product at `(e, k)`: the message row of edge `e` against column `k`. -/
theorem v47_at (e : Fin 1600000) (k : Fin 64) :
    val_main_v47 (F := Ideal) x0 x1 x2 x4 x5 x6 x7 x8 (ix2 e k)
      = ∑ j : Fin 64, val_main_v46 (F := Ideal) x0 x1 x2 x4 x5 x6 x7 (ix2 e j) * x8 (ix2 j k) := by
  have hl : ∀ j : Fin 64, lidx_main_v47 (ix2 e k) j = ix2 e j := fun j => idx2_ext rfl rfl
  have hr : ∀ j : Fin 64, ridx_main_v47 (ix2 e k) j = ix2 j k := fun j => idx2_ext rfl rfl
  rw [val_main_v47_apply]
  exact Finset.sum_congr rfl fun j _ => by rw [hl, hr]

/-- The position network's first layer, rectified, at `(e, k)`. -/
theorem v51_at (e : Fin 1600000) (k : Fin 64) :
    val_main_v51 (F := Ideal) x0 x1 x2 x4 x5 x6 x7 x8 x9 (ix2 e k)
      = Spec.relu (Spec.dense (fun c => val_main_v46 (F := Ideal) x0 x1 x2 x4 x5 x6 x7 (ix2 e c))
          (fun k c => x8 (ix2 k c)) (fun c => x9 (ix1 c)) k) := by
  rw [val_main_v51_apply, val_main_v50_apply, v47_at, v49_at, zero2_at]
  rfl

/-- The position network's last product, one column wide, at `(e, 0)`, from any reading `m` of its first layer's
    row `e`. -/
theorem v52_at (e : Fin 1600000) (m : Fin 64 → EReal)
    (hm : ∀ k, val_main_v51 (F := Ideal) x0 x1 x2 x4 x5 x6 x7 x8 x9 (ix2 e k) = m k) :
    val_main_v52 (F := Ideal) x0 x1 x2 x4 x5 x6 x7 x8 x9 x10 (ix2 e (0 : Fin 1)) = ∑ k : Fin 64, m k * x10 (ix2 k (0 : Fin 1)) := by
  have hl : ∀ k : Fin 64, lidx_main_v52 (ix2 e (0 : Fin 1)) k = ix2 e k := fun k => idx2_ext rfl rfl
  have hr : ∀ k : Fin 64, ridx_main_v52 (ix2 e (0 : Fin 1)) k = ix2 k (0 : Fin 1) := fun k => idx2_ext rfl rfl
  rw [val_main_v52_apply]
  exact Finset.sum_congr rfl fun k _ => by rw [hl, hr, hm]

/-- The reference's position messages at `(e, d)`: the relative position times the edge's position weight. -/
theorem posmsg_apply (e : Fin 1600000) (d : Fin 2) :
    val_main_v57 (F := Ideal) x0 x1 x2 x4 x5 x6 x7 x8 x9 x10 x11 (ix2 e d)
      = val_main_v32 (F := Ideal) x1 x2 (ix2 e d) * Spec.posw (fun c => val_main_v46 (F := Ideal) x0 x1 x2 x4 x5 x6 x7 (ix2 e c))
          (fun k c => x8 (ix2 k c)) (fun c => x9 (ix1 c)) (fun k => x10 (ix2 k (0 : Fin 1))) (x11 (ix1 (0 : Fin 1))) := by
  have hi : idx_main_v56 (ix2 e d) = ix2 e (0 : Fin 1) := idx2_ext rfl rfl
  rw [val_main_v57_apply, val_main_v56_apply, hi, val_main_v55_apply,
    v52_at x0 x1 x2 x4 x5 x6 x7 x8 x9 x10 e _ (fun k => v51_at x0 x1 x2 x4 x5 x6 x7 x8 x9 e k), v54_at]
  rfl

/-! ## The node update -/

/-- The joined row `(h | a)` of node `n` against column `k` of the update's first weight matrix: the 128 terms
    fall into the block that meets the node's own row and the block that meets its aggregated messages. -/
theorem v73_at (n : Fin 100000) (k : Fin 64) :
    val_main_v73 (F := Ideal) x0 x1 x2 x4 x5 x6 x7 x12 (ix2 n k)
      = (∑ j : Fin 64, x0 (ix2 n j) * x12 (ix2 (⟨j.val, by omega⟩ : Fin 128) k))
        + (∑ j : Fin 64, val_main_v60 (F := Ideal) x0 x1 x2 x4 x5 x6 x7 (ix2 n j) * x12 (ix2 (⟨64 + j.val, by omega⟩ : Fin 128) k)) := by
  have hl : ∀ j : Fin 128, lidx_main_v73 (ix2 n k) j = ix2 n j := fun j => idx2_ext rfl rfl
  have hr : ∀ j : Fin 128, ridx_main_v73 (ix2 n k) j = ix2 j k := fun j => idx2_ext rfl rfl
  rw [val_main_v73_apply, Spec.sum128]
  refine congrArg₂ (· + ·) (Finset.sum_congr rfl fun j _ => ?_) (Finset.sum_congr rfl fun j _ => ?_)
  · rw [hl, hr]; unfold val_main_v72; rw [cat2_lo]
  · rw [hl, hr]; unfold val_main_v72; rw [cat2_hi]

/-- The update network's first layer, rectified, at `(n, k)`. -/
theorem v77_at (n : Fin 100000) (k : Fin 64) :
    val_main_v77 (F := Ideal) x0 x1 x2 x4 x5 x6 x7 x12 x13 (ix2 n k)
      = Spec.relu (((∑ j : Fin 64, x0 (ix2 n j) * x12 (ix2 (⟨j.val, by omega⟩ : Fin 128) k))
          + (∑ j : Fin 64, val_main_v60 (F := Ideal) x0 x1 x2 x4 x5 x6 x7 (ix2 n j) * x12 (ix2 (⟨64 + j.val, by omega⟩ : Fin 128) k)))
        + x13 (ix1 k)) := by
  rw [val_main_v77_apply, val_main_v76_apply, v73_at, v75_at, zero3_at]
  rfl

/-- The update network's second product at `(n, c)`, from any reading `m` of its first layer's row `n`. -/
theorem v78_at (n : Fin 100000) (c : Fin 64) (m : Fin 64 → EReal)
    (hm : ∀ k, val_main_v77 (F := Ideal) x0 x1 x2 x4 x5 x6 x7 x12 x13 (ix2 n k) = m k) :
    val_main_v78 (F := Ideal) x0 x1 x2 x4 x5 x6 x7 x12 x13 x14 (ix2 n c) = ∑ k : Fin 64, m k * x14 (ix2 k c) := by
  have hl : ∀ k : Fin 64, lidx_main_v78 (ix2 n c) k = ix2 n k := fun k => idx2_ext rfl rfl
  have hr : ∀ k : Fin 64, ridx_main_v78 (ix2 n c) k = ix2 k c := fun k => idx2_ext rfl rfl
  rw [val_main_v78_apply]
  exact Finset.sum_congr rfl fun k _ => by rw [hl, hr, hm]

/-- The reference's updated features at `(n, c)`, from row `n` of the features and of the aggregated messages. -/
theorem upd_apply (n : Fin 100000) (c : Fin 64) :
    val_main_v82 (F := Ideal) x0 x1 x2 x4 x5 x6 x7 x12 x13 x14 x15 (ix2 n c)
      = Spec.upd (fun k => x0 (ix2 n k)) (fun k => val_main_v60 (F := Ideal) x0 x1 x2 x4 x5 x6 x7 (ix2 n k))
          (fun j k => x12 (ix2 (⟨j.val, by omega⟩ : Fin 128) k)) (fun j k => x12 (ix2 (⟨64 + j.val, by omega⟩ : Fin 128) k))
          (fun k => x13 (ix1 k)) (fun k c => x14 (ix2 k c)) (fun c => x15 (ix1 c)) c := by
  rw [val_main_v82_apply, val_main_v81_apply,
    v78_at x0 x1 x2 x4 x5 x6 x7 x12 x13 x14 n c _ (fun k => v77_at x0 x1 x2 x4 x5 x6 x7 x12 x13 n k), v80_at]
  rfl

end Cert.RefValue

end
-- ==== Proof.Bridge.lean ====
/-
  The kernel program's two results are the reference's.

  Both programs slice the edge list, gather, form relative positions and squared distances with the same host
  operations; the kernel's gathers carry a bounds test and a fill, which change nothing when every entry of the edge
  list is a node number. The first region's message array is then the reference's message array, row by row (the
  row functions of the specification on both sides, the reference's weight matrix met through its three blocks); the
  scattered sums between the regions are the same operations of equal arrays; and the second region's arrays are the
  reference's updated features and positions, row by row again.
-/
import proofs.«400872_j49581102465544_2_alg».proof.Proof.Region0
import proofs.«400872_j49581102465544_2_alg».proof.Proof.Region1
import proofs.«400872_j49581102465544_2_alg».proof.Proof.HostA
import proofs.«400872_j49581102465544_2_alg».proof.Proof.HostB
import proofs.«400872_j49581102465544_2_alg».proof.Proof.RefValue
import proofs.«400872_j49581102465544_2_alg».proof.Proof.TakeFill
import Idealize.ShloMosaic.Lib.ValueLayout

set_option maxRecDepth 16384

noncomputable section

namespace Cert.Bridge

open Idealize.ShloMosaic Idealize.ShloMosaic.TcCoe Idealize.ShloMosaic.ValueIdx Idealize.SL.Sem
open Cert.KernelIdeal Cert.KernelIdeal.Gen
open Cert.ReferenceIdeal.Read (val_main_v10 val_main_v17 val_main_v32 val_main_v35 val_main_v46 val_main_v57 val_main_v60 val_main_v71 val_main_v82 val_main_v83)

/-! ## Slices and row layouts read at an index -/

/-- Rows `0 … 63` cut out of a matrix of 129 rows. -/
theorem rows0_129 (X : (⟨2, ![129, 64]⟩ : Shape).Idx → EReal) (h : (⟨2, ![129, 64]⟩ : Shape).Slices ![0, 0] ⟨2, ![64, 64]⟩)
    (k j : Fin 64) : extractStridedSlice ⟨2, ![64, 64]⟩ ![0, 0] X h (ix2 k j) = X (ix2 (⟨k.val, by omega⟩ : Fin 129) j) :=
  slice2_axis0_apply 0 X h k j ⟨k.val, by omega⟩ (by simp)

/-- Rows `64 … 127` cut out of a matrix of 129 rows. -/
theorem rows64_129 (X : (⟨2, ![129, 64]⟩ : Shape).Idx → EReal) (h : (⟨2, ![129, 64]⟩ : Shape).Slices ![64, 0] ⟨2, ![64, 64]⟩)
    (k j : Fin 64) : extractStridedSlice ⟨2, ![64, 64]⟩ ![64, 0] X h (ix2 k j) = X (ix2 (⟨64 + k.val, by omega⟩ : Fin 129) j) :=
  slice2_axis0_apply 64 X h k j ⟨64 + k.val, by omega⟩ rfl

/-- Rows `0 … 63` cut out of a matrix of 128 rows. -/
theorem rows0_128 (X : (⟨2, ![128, 64]⟩ : Shape).Idx → EReal) (h : (⟨2, ![128, 64]⟩ : Shape).Slices ![0, 0] ⟨2, ![64, 64]⟩)
    (k j : Fin 64) : extractStridedSlice ⟨2, ![64, 64]⟩ ![0, 0] X h (ix2 k j) = X (ix2 (⟨k.val, by omega⟩ : Fin 128) j) :=
  slice2_axis0_apply 0 X h k j ⟨k.val, by omega⟩ (by simp)

/-- Rows `64 … 127` cut out of a matrix of 128 rows. -/
theorem rows64_128 (X : (⟨2, ![128, 64]⟩ : Shape).Idx → EReal) (h : (⟨2, ![128, 64]⟩ : Shape).Slices ![64, 0] ⟨2, ![64, 64]⟩)
    (k j : Fin 64) : extractStridedSlice ⟨2, ![64, 64]⟩ ![64, 0] X h (ix2 k j) = X (ix2 (⟨64 + k.val, by omega⟩ : Fin 128) j) :=
  slice2_axis0_apply 64 X h k j ⟨64 + k.val, by omega⟩ rfl

/-- Row `128` cut out of a 129-row matrix. -/
theorem row128 (X : (⟨2, ![129, 64]⟩ : Shape).Idx → EReal) (h : (⟨2, ![129, 64]⟩ : Shape).Slices ![128, 0] ⟨2, ![1, 64]⟩)
    (j : Fin 64) : extractStridedSlice ⟨2, ![1, 64]⟩ ![128, 0] X h (ix2 (0 : Fin 1) j) = X (ix2 (⟨128, by omega⟩ : Fin 129) j) :=
  slice2_axis0_apply 128 X h 0 j ⟨128, by omega⟩ rfl

variable (m : (ℓ : Loc nD τ sig) → Buf (Elt Ideal) ℓ) (ρ : Dev nD → PrngReg)

/-! ## The gathers without their fill -/

/-- Every target node is a node number. -/
theorem dst_range (c : Dev nD) (hr : ∀ i, TakeFill.InRange ((m ((c : Thread nD τ).loc main_arg2)) i)) : ∀ e, TakeFill.InRange (HostA.dst m ρ c e) := by
  intro e
  rw [HostA.dst_eq]
  exact hr _

/-- Every source node is a node number. -/
theorem src_range (c : Dev nD) (hr : ∀ i, TakeFill.InRange ((m ((c : Thread nD τ).loc main_arg2)) i)) : ∀ e, TakeFill.InRange (HostA.src m ρ c e) := by
  intro e
  rw [HostA.src_eq]
  exact hr _

/-- The target nodes' feature rows are the reference's gather. -/
theorem hi_eq (c : Dev nD) (hr : ∀ i, TakeFill.InRange ((m ((c : Thread nD τ).loc main_arg2)) i)) : V6 m ρ c main_v4 = val_main_v10 (F := Ideal) (m ((c : Thread nD τ).loc main_arg0)) (m ((c : Thread nD τ).loc main_arg2)) := by
  refine (HostA.e_v4 m ρ c).trans ?_
  unfold HostA.takeRows64
  rw [TakeFill.fill64 _ _ (dst_range m ρ c hr), HostA.dst_eq]
  rfl

/-- The source nodes' feature rows are the reference's gather. -/
theorem hj_eq (c : Dev nD) (hr : ∀ i, TakeFill.InRange ((m ((c : Thread nD τ).loc main_arg2)) i)) : V6 m ρ c main_v5 = val_main_v17 (F := Ideal) (m ((c : Thread nD τ).loc main_arg0)) (m ((c : Thread nD τ).loc main_arg2)) := by
  refine (HostA.e_v5 m ρ c).trans ?_
  unfold HostA.takeRows64
  rw [TakeFill.fill64 _ _ (src_range m ρ c hr), HostA.src_eq]
  rfl

/-- The relative positions are the reference's. -/
theorem rel_eq (c : Dev nD) (hr : ∀ i, TakeFill.InRange ((m ((c : Thread nD τ).loc main_arg2)) i)) : V6 m ρ c main_v8 = val_main_v32 (F := Ideal) (m ((c : Thread nD τ).loc main_arg1)) (m ((c : Thread nD τ).loc main_arg2)) := by
  refine (HostA.e_v8 m ρ c).trans ?_
  unfold HostA.relPos HostA.takeRows2
  rw [TakeFill.fill2 _ _ (dst_range m ρ c hr), TakeFill.fill2 _ _ (src_range m ρ c hr), HostA.dst_eq, HostA.src_eq]
  rfl

/-- The squared distances are the reference's. -/
theorem d2_eq (c : Dev nD) (hr : ∀ i, TakeFill.InRange ((m ((c : Thread nD τ).loc main_arg2)) i)) : V6 m ρ c main_v11 = val_main_v35 (F := Ideal) (m ((c : Thread nD τ).loc main_arg1)) (m ((c : Thread nD τ).loc main_arg2)) := by
  refine (HostA.e_v11 m ρ c).trans ?_
  unfold HostA.dist2 HostA.relPos HostA.takeRows2
  rw [TakeFill.fill2 _ _ (dst_range m ρ c hr), TakeFill.fill2 _ _ (src_range m ρ c hr), HostA.dst_eq, HostA.src_eq]
  rfl

/-! ## The first region's arrays -/

/-- Edge `e`'s message, from the region's entry arrays, is the reference's message row. -/
theorem msgAt_eq (c : Dev nD) (hr : ∀ i, TakeFill.InRange ((m ((c : Thread nD τ).loc main_arg2)) i)) (e : Fin 1600000) :
    Region0.msgAt (V6 m ρ) c e = fun q => val_main_v46 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (ix2 e q) := by
  funext q
  rw [RefValue.msg_apply]
  unfold Region0.msgAt
  rw [hi_eq m ρ c hr, hj_eq m ρ c hr, d2_eq m ρ c hr,
    show V6 m ρ c main_v12 = _ from HostA.e_v12 m ρ c, show V6 m ρ c main_v13 = _ from HostA.e_v13 m ρ c,
    show V6 m ρ c main_v14 = _ from HostA.e_v14 m ρ c, show V6 m ρ c main_v15 = _ from HostA.e_v15 m ρ c,
    show V6 m ρ c main_arg6 = _ from HostA.e_arg6 m ρ c, show V6 m ρ c main_v16 = _ from HostA.e_v16 m ρ c]
  simp only [shapeCast_a_1a_apply]
  congr 1
  · funext k j; exact rows0_129 _ _ k j
  · funext k j; exact rows64_129 _ _ k j
  · funext j; exact row128 _ _ j

/-- The message array the first region leaves is the reference's. -/
theorem msg_eq (c : Dev nD) (hr : ∀ i, TakeFill.InRange ((m ((c : Thread nD τ).loc main_arg2)) i)) : Region0.msgArr (V6 m ρ) c = val_main_v46 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  funext i
  obtain ⟨e, q, rfl⟩ : ∃ (e : Fin 1600000) (q : Fin 64), i = ix2 e q := ⟨i 0, i 1, eq_ix2 i⟩
  rw [Region0.msgArr_of (V6 m ρ) c (ix2 e q) e q rfl rfl]
  exact congrFun (msgAt_eq m ρ c hr e) q

/-- The position-message array the first region leaves is the reference's. -/
theorem pos_eq (c : Dev nD) (hr : ∀ i, TakeFill.InRange ((m ((c : Thread nD τ).loc main_arg2)) i)) : Region0.posArr (V6 m ρ) c = val_main_v57 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext i
  obtain ⟨e, d, rfl⟩ : ∃ (e : Fin 1600000) (d : Fin 2), i = ix2 e d := ⟨i 0, i 1, eq_ix2 i⟩
  rw [Region0.posArr_of (V6 m ρ) c (ix2 e d) e d rfl rfl, RefValue.posmsg_apply]
  unfold Region0.posAt Region0.relAt
  rw [msgAt_eq m ρ c hr e, rel_eq m ρ c hr,
    show V6 m ρ c main_arg8 = _ from HostA.e_arg8 m ρ c, show V6 m ρ c main_v17 = _ from HostA.e_v17 m ρ c,
    show V6 m ρ c main_arg10 = _ from HostA.e_arg10 m ρ c, show V6 m ρ c main_v18 = _ from HostA.e_v18 m ρ c]
  simp only [shapeCast_a_1a_apply]

/-! ## Between the regions -/

/-- The aggregated messages are the reference's scattered sum. -/
theorem agg_eq (c : Dev nD) (hr : ∀ i, TakeFill.InRange ((m ((c : Thread nD τ).loc main_arg2)) i)) : V8 m ρ c main_v22 = val_main_v60 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (HostB.f_v22 m ρ c).trans ?_
  rw [Region0.final14, msg_eq m ρ c hr, show W1 m ρ c (Proc.devRef .tc main_v3) = _ from HostA.dst_eq m ρ c]
  rfl

/-- The aggregated position updates are the reference's. -/
theorem aggpos_eq (c : Dev nD) (hr : ∀ i, TakeFill.InRange ((m ((c : Thread nD τ).loc main_arg2)) i)) : V8 m ρ c main_v33 = val_main_v71 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (HostB.f_v33 m ρ c).trans ?_
  rw [Region0.final15, pos_eq m ρ c hr, show W1 m ρ c (Proc.devRef .tc main_v3) = _ from HostA.dst_eq m ρ c]
  rfl

/-! ## The results -/

/-- The kernel program's first result is the reference's. -/
theorem res0 (c : Dev nD) (hr : ∀ i, TakeFill.InRange ((m ((c : Thread nD τ).loc main_arg2)) i)) :
    W9 m ρ c (Proc.devRef .tc main_v38_0) = val_main_v82 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) := by
  refine (W9_arr m ρ c 9).trans ?_
  rw [Region1.final9]
  funext i
  obtain ⟨n, q, rfl⟩ : ∃ (n : Fin 100000) (q : Fin 64), i = ix2 n q := ⟨i 0, i 1, eq_ix2 i⟩
  rw [Region1.updArr_of (V8 m ρ) c (ix2 n q) n q rfl rfl, RefValue.upd_apply]
  unfold Region1.updAt
  rw [agg_eq m ρ c hr,
    show V8 m ρ c main_arg0 = _ from HostB.f_arg0 m ρ c, show V8 m ρ c main_v34 = _ from HostB.f_v34 m ρ c,
    show V8 m ρ c main_v35 = _ from HostB.f_v35 m ρ c, show V8 m ρ c main_v36 = _ from HostB.f_v36 m ρ c,
    show V8 m ρ c main_arg14 = _ from HostB.f_arg14 m ρ c, show V8 m ρ c main_v37 = _ from HostB.f_v37 m ρ c]
  simp only [shapeCast_a_1a_apply]
  congr 1
  · funext j k; exact rows0_128 _ _ j k
  · funext j k; exact rows64_128 _ _ j k

/-- The kernel program's second result is the reference's. -/
theorem res1 (c : Dev nD) (hr : ∀ i, TakeFill.InRange ((m ((c : Thread nD τ).loc main_arg2)) i)) :
    W9 m ρ c (Proc.devRef .tc main_v38_1) = val_main_v83 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W9_arr m ρ c 10).trans ?_
  rw [Region1.final10]
  funext i
  obtain ⟨n, d, rfl⟩ : ∃ (n : Fin 100000) (d : Fin 2), i = ix2 n d := ⟨i 0, i 1, eq_ix2 i⟩
  rw [Region1.pupArr_of (V8 m ρ) c (ix2 n d) n d rfl rfl]
  unfold Region1.pupAt Region1.posOld Region1.posAgg
  rw [aggpos_eq m ρ c hr, show V8 m ρ c main_arg1 = _ from HostB.f_arg1 m ρ c]
  rfl

end Cert.Bridge

end
-- ==== Proof.lean ====
/-
  One message-passing layer on a graph of 100,000 nodes and 1,600,000 edges: the kernel program against its reference.

  Both programs gather the end nodes' features and positions for every edge, run a two-layer message network on
  `(h_i, h_j, |x_i - x_j|²)`, weight the relative positions by a second small network of the message, sum messages and
  weighted positions into the target nodes, and update every node's features (a two-layer network of its row and its
  aggregated message row, added to its row) and position. The kernel program does the two dense parts in two
  pipelined regions, block of rows by block of rows, with the first weight matrix of each network cut into the blocks
  that meet each input; the reference joins the inputs into one row and multiplies by the whole matrix. Over the
  extended reals the two agree because a sum over 129 (or 128) terms is the sum of its blocks; no other law is used,
  so finiteness of the float inputs is never opened. The kernel program's gathers fill out-of-range rows where the
  reference's clamp, so the claim holds where every entry of the edge list is a node number, which the precondition
  states.

  The frames of the two kernel programs are the generated ones; the reference's frame is its generated run with the
  results dropped; the idealization rewrote nothing. For the value claim the kernel program's run is taken with its two
  result buffers named (RunNamed), each region's output arrays are read as one function of the region's entry arrays
  (Region0, Region1, over the bodies read at an index in BodyMsg, BodyUpd), the host operations around the regions
  are read as terms of the launch arrays (HostA, HostB), and Bridge identifies the results with the reference's
  stages (RefValue).
-/
import proofs.«400872_j49581102465544_2_alg».proof.Defs
import proofs.«400872_j49581102465544_2_alg».proof.Proof.Gen.Kernel
import proofs.«400872_j49581102465544_2_alg».proof.Proof.Gen.Kernel.Skeleton
import proofs.«400872_j49581102465544_2_alg».proof.Proof.Gen.Kernel.Launch
import proofs.«400872_j49581102465544_2_alg».proof.Proof.Gen.Kernel.Points
import proofs.«400872_j49581102465544_2_alg».proof.Proof.Gen.Kernel.Frame
import proofs.«400872_j49581102465544_2_alg».proof.Proof.Gen.KernelIdeal
import proofs.«400872_j49581102465544_2_alg».proof.Proof.Gen.KernelIdeal.Skeleton
import proofs.«400872_j49581102465544_2_alg».proof.Proof.Gen.KernelIdeal.Launch
import proofs.«400872_j49581102465544_2_alg».proof.Proof.Gen.KernelIdeal.Points
import proofs.«400872_j49581102465544_2_alg».proof.Proof.Gen.KernelIdeal.Frame
import proofs.«400872_j49581102465544_2_alg».proof.Proof.Gen.ReferenceIdeal
import proofs.«400872_j49581102465544_2_alg».proof.Proof.Gen.Pre_finite_inputs
import proofs.«400872_j49581102465544_2_alg».proof.Proof.Gen.ReferenceIdeal.Run
import proofs.«400872_j49581102465544_2_alg».proof.Proof.Gen.ReferenceIdeal.Read
import proofs.«400872_j49581102465544_2_alg».proof.Proof.RunNamed
import proofs.«400872_j49581102465544_2_alg».proof.Proof.IdxRange
import proofs.«400872_j49581102465544_2_alg».proof.Proof.Bridge
import Idealize.ShloMosaic.Adequacy
import Idealize.ShloMosaic.Init

noncomputable section

namespace Cert.Proof

open Idealize.ShloMosaic Idealize.ShloMosaic.TcCoe Idealize.SL.Sem

/-- The reference runs and leaves its arguments as launched: its generated run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

open Cert.KernelIdeal Cert.KernelIdeal.Gen in
/-- From memories that agree on the arguments, with every entry of the edge list a node number, the two idealized
    programs end with equal results: the kernel program's result buffers hold the reference's last two stages. -/
theorem algebraic : Cert.algebraic_KernelIdeal_ReferenceIdeal := by
  intro m ρ m' ρ' hpre hagree
  have hr : ∀ (c : Dev nD) i, TakeFill.InRange (m ((c : Thread nD τ).loc main_arg2) i) := fun c i =>
    Cert.IdxRange.range_of_pre _ _ _ _ _ _ _ _ _ _ _ _ _ _ _ _ (hpre c) i
  refine ⟨fun c => W9 m ρ c (Proc.devRef .tc main_v38_0), fun c => W9 m ρ c (Proc.devRef .tc main_v38_1),
    Cert.KernelIdeal.RunNamed.run_named m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v82_eq, (hagree c).1, (hagree c).2.1, (hagree c).2.2.1, (hagree c).2.2.2.2.1, (hagree c).2.2.2.2.2.1, (hagree c).2.2.2.2.2.2.1, (hagree c).2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
    exact (Cert.Bridge.res0 m ρ c (hr c)).symm
  · rw [Cert.ReferenceIdeal.Read.val_main_v83_eq, (hagree c).1, (hagree c).2.1, (hagree c).2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1]
    exact (Cert.Bridge.res1 m ρ c (hr c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
